-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8x2048x128 : Shape := ⟨3, ![8, 2048, 128]⟩
abbrev S128x128 : Shape := ⟨2, ![128, 128]⟩
abbrev S1x2048x128 : Shape := ⟨3, ![1, 2048, 128]⟩
abbrev S2048x128 : Shape := ⟨2, ![2048, 128]⟩
abbrev S2048x1 : Shape := ⟨2, ![2048, 1]⟩
abbrev S2048 : Shape := ⟨1, ![2048]⟩
abbrev S256x128 : Shape := ⟨2, ![256, 128]⟩
abbrev S2048x256 : Shape := ⟨2, ![2048, 256]⟩
abbrev S256x1 : Shape := ⟨2, ![256, 1]⟩

abbrev nBuf : Space → Nat
  | .hbm => 3
  | .vmem => 9
  | .smem => 0
  | _ => 0

abbrev bufTy : (tb : Table) → Fin (tcTables nBuf tb) → BufTy
  | .hbm, ⟨0, _⟩ => ⟨S8x2048x128, .f32⟩
  | .hbm, ⟨1, _⟩ => ⟨S128x128, .f32⟩
  | .hbm, ⟨2, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S1x2048x128, .f32⟩
  | .local _ .vmem, ⟨4, _⟩ => ⟨S1x2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .f32⟩
  | .local _ .vmem, ⟨8, _⟩ => ⟨S2048x1, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v24 : BitVec 32 := Scalar.addi c0_i32 c8_i32
  let c1_i32 : BitVec 32 := 1#32
  ⟨c0_i32, v24, c1_i32⟩
def k0_mult1 (k0_t1 : Fin k0_t1_loop.trips) : BitVec 32 :=
  let c0_i32_108 : BitVec 32 := 0#32
  let c0_i32 : BitVec 32 := 0#32
  let c1_i32 : BitVec 32 := 1#32
  let arg8 : BitVec 32 := Scf.iv c0_i32 c1_i32 k0_t1
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  v135
def k0_off1 (k0_t1 : Fin k0_t1_loop.trips) : Fin 2 → Nat :=
  let c0_i32_108 : BitVec 32 := 0#32
  let c0_i32 : BitVec 32 := 0#32
  let c1_i32 : BitVec 32 := 1#32
  let arg8 : BitVec 32 := Scf.iv c0_i32 c1_i32 k0_t1
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v137 : Index := Scalar.indexCast v136
  let c0_109 : Index := 0#32
  ![v137.toNat, 0]
@[reducible] def k0_t2_loop : Scf.Loop 32 :=
  let c0_i32_22 : BitVec 32 := 0#32
  let c8_i32_23 : BitVec 32 := 8#32
  let v36 : BitVec 32 := Scalar.addi c0_i32_22 c8_i32_23
  let c1_i32_24 : BitVec 32 := 1#32
  ⟨c0_i32_22, v36, c1_i32_24⟩
def k0_mult2 (k0_t2 : Fin k0_t2_loop.trips) : BitVec 32 :=
  let c0_i32_108 : BitVec 32 := 0#32
  let c0_i32_22 : BitVec 32 := 0#32
  let c1_i32_24 : BitVec 32 := 1#32
  let arg8 : BitVec 32 := Scf.iv c0_i32_22 c1_i32_24 k0_t2
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  v135
def k0_off2 (k0_t2 : Fin k0_t2_loop.trips) : Fin 2 → Nat :=
  let c0_i32_108 : BitVec 32 := 0#32
  let c0_i32_22 : BitVec 32 := 0#32
  let c1_i32_24 : BitVec 32 := 1#32
  let arg8 : BitVec 32 := Scf.iv c0_i32_22 c1_i32_24 k0_t2
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v137 : Index := Scalar.indexCast v136
  let c0_109 : Index := 0#32
  ![v137.toNat, 0]
def k0_off3 (k0_t2 : Fin k0_t2_loop.trips) : Fin 2 → Nat :=
  let c0_i32_108 : BitVec 32 := 0#32
  let c0_i32_22 : BitVec 32 := 0#32
  let c1_i32_24 : BitVec 32 := 1#32
  let arg8 : BitVec 32 := Scf.iv c0_i32_22 c1_i32_24 k0_t2
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v146 : Index := Scalar.indexCast v136
  let c0_114 : Index := 0#32
  ![v146.toNat, 0]
@[reducible] def k0_t3_loop : Scf.Loop 32 :=
  let c0_i32_42 : BitVec 32 := 0#32
  let c8_i32_43 : BitVec 32 := 8#32
  let v63 : BitVec 32 := Scalar.addi c0_i32_42 c8_i32_43
  let c1_i32_44 : BitVec 32 := 1#32
  ⟨c0_i32_42, v63, c1_i32_44⟩
def k0_mult3 (k0_t3 : Fin k0_t3_loop.trips) : BitVec 32 :=
  let c0_i32_108 : BitVec 32 := 0#32
  let c0_i32_42 : BitVec 32 := 0#32
  let c1_i32_44 : BitVec 32 := 1#32
  let arg8 : BitVec 32 := Scf.iv c0_i32_42 c1_i32_44 k0_t3
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  v135
def k0_off4 (k0_t3 : Fin k0_t3_loop.trips) : Fin 2 → Nat :=
  let c0_i32_108 : BitVec 32 := 0#32
  let c0_i32_42 : BitVec 32 := 0#32
  let c1_i32_44 : BitVec 32 := 1#32
  let arg8 : BitVec 32 := Scf.iv c0_i32_42 c1_i32_44 k0_t3
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v137 : Index := Scalar.indexCast v136
  let c0_109 : Index := 0#32
  ![v137.toNat, 0]
@[reducible] def k0_t4_loop : Scf.Loop 32 :=
  let c0_i32_54 : BitVec 32 := 0#32
  let c8_i32_55 : BitVec 32 := 8#32
  let v75 : BitVec 32 := Scalar.addi c0_i32_54 c8_i32_55
  let c1_i32_56 : BitVec 32 := 1#32
  ⟨c0_i32_54, v75, c1_i32_56⟩
def k0_mult4 (k0_t4 : Fin k0_t4_loop.trips) : BitVec 32 :=
  let c0_i32_108 : BitVec 32 := 0#32
  let c0_i32_54 : BitVec 32 := 0#32
  let c1_i32_56 : BitVec 32 := 1#32
  let arg8 : BitVec 32 := Scf.iv c0_i32_54 c1_i32_56 k0_t4
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  v135
def k0_off5 (k0_t4 : Fin k0_t4_loop.trips) : Fin 2 → Nat :=
  let c0_i32_108 : BitVec 32 := 0#32
  let c0_i32_54 : BitVec 32 := 0#32
  let c1_i32_56 : BitVec 32 := 1#32
  let arg8 : BitVec 32 := Scf.iv c0_i32_54 c1_i32_56 k0_t4
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v137 : Index := Scalar.indexCast v136
  let c0_109 : Index := 0#32
  ![v137.toNat, 0]
def k0_off6 (k0_t4 : Fin k0_t4_loop.trips) : Fin 2 → Nat :=
  let c0_i32_108 : BitVec 32 := 0#32
  let c0_i32_54 : BitVec 32 := 0#32
  let c1_i32_56 : BitVec 32 := 1#32
  let arg8 : BitVec 32 := Scf.iv c0_i32_54 c1_i32_56 k0_t4
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v146 : Index := Scalar.indexCast v136
  let c0_114 : Index := 0#32
  ![v146.toNat, 0]
@[reducible] def k0_t5_loop : Scf.Loop 32 :=
  let c0_i32_74 : BitVec 32 := 0#32
  let c8_i32_75 : BitVec 32 := 8#32
  let v102 : BitVec 32 := Scalar.addi c0_i32_74 c8_i32_75
  let c1_i32_76 : BitVec 32 := 1#32
  ⟨c0_i32_74, v102, c1_i32_76⟩
def k0_mult5 (k0_t5 : Fin k0_t5_loop.trips) : BitVec 32 :=
  let c0_i32_108 : BitVec 32 := 0#32
  let c0_i32_74 : BitVec 32 := 0#32
  let c1_i32_76 : BitVec 32 := 1#32
  let arg8 : BitVec 32 := Scf.iv c0_i32_74 c1_i32_76 k0_t5
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  v135
def k0_off7 (k0_t5 : Fin k0_t5_loop.trips) : Fin 2 → Nat :=
  let c0_i32_108 : BitVec 32 := 0#32
  let c0_i32_74 : BitVec 32 := 0#32
  let c1_i32_76 : BitVec 32 := 1#32
  let arg8 : BitVec 32 := Scf.iv c0_i32_74 c1_i32_76 k0_t5
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v137 : Index := Scalar.indexCast v136
  let c0_109 : Index := 0#32
  ![v137.toNat, 0]
@[reducible] def k0_t6_loop : Scf.Loop 32 :=
  let c0_i32_86 : BitVec 32 := 0#32
  let c8_i32_87 : BitVec 32 := 8#32
  let v114 : BitVec 32 := Scalar.addi c0_i32_86 c8_i32_87
  let c1_i32_88 : BitVec 32 := 1#32
  ⟨c0_i32_86, v114, c1_i32_88⟩
def k0_mult6 (k0_t6 : Fin k0_t6_loop.trips) : BitVec 32 :=
  let c0_i32_108 : BitVec 32 := 0#32
  let c0_i32_86 : BitVec 32 := 0#32
  let c1_i32_88 : BitVec 32 := 1#32
  let arg8 : BitVec 32 := Scf.iv c0_i32_86 c1_i32_88 k0_t6
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  v135
def k0_off8 (k0_t6 : Fin k0_t6_loop.trips) : Fin 2 → Nat :=
  let c0_i32_108 : BitVec 32 := 0#32
  let c0_i32_86 : BitVec 32 := 0#32
  let c1_i32_88 : BitVec 32 := 1#32
  let arg8 : BitVec 32 := Scf.iv c0_i32_86 c1_i32_88 k0_t6
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v137 : Index := Scalar.indexCast v136
  let c0_109 : Index := 0#32
  ![v137.toNat, 0]
def k0_off9 (k0_t6 : Fin k0_t6_loop.trips) : Fin 2 → Nat :=
  let c0_i32_108 : BitVec 32 := 0#32
  let c0_i32_86 : BitVec 32 := 0#32
  let c1_i32_88 : BitVec 32 := 1#32
  let arg8 : BitVec 32 := Scf.iv c0_i32_86 c1_i32_88 k0_t6
  let c1_i32_107 : BitVec 32 := 1#32
  let v133 : BitVec 32 := Scalar.muli arg8 c1_i32_107
  let v134 : BitVec 32 := Scalar.addi c0_i32_108 v133
  let c256_i32 : BitVec 32 := 256#32
  let v135 : BitVec 32 := Scalar.muli v134 c256_i32
  let v136 : BitVec 32 := v135
  let v146 : Index := Scalar.indexCast v136
  let c0_114 : Index := 0#32
  ![v146.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S256x128 : 0 < S256x128.numel
  reduces_S2048x256_S2048 : S2048x256.Reduces [1] S2048
  h_S256x1 : 0 < S256x1.numel
  broadcasts_S256x1_S256x128 : S256x1.Broadcasts S256x128
  inb_S128x128_S128x128_0_0 : ∀ a, (![0, 0] : Fin 2 → Nat) a + S128x128.size a ≤ S128x128.size a
  h_S128x128 : 0 < S128x128.numel
  shapeCasts_S2048x128_S1x2048x128 : S2048x128.ShapeCasts S1x2048x128
  dot_S2048x128_S256x128_S2048x256_1_1_0_0_n_n_wf : DotDims.WF S2048x128 S256x128 S2048x256 [1] [1] [0] [0] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S2048x128.size a
  k0_t2_ok : k0_t2_loop.OK
  k0_mult2_dvd : ∀ k0_t2 : Fin k0_t2_loop.trips, 256 ∣ (k0_mult2 k0_t2).toNat
  k0_off2_inb : ∀ k0_t2 : Fin k0_t2_loop.trips, ∀ a, (k0_off2 k0_t2) a + S256x128.size a ≤ S2048x128.size a
  k0_off3_inb : ∀ k0_t2 : Fin k0_t2_loop.trips, ∀ a, (k0_off3 k0_t2) a + S256x1.size a ≤ S2048x1.size a
  k0_t3_ok : k0_t3_loop.OK
  k0_mult3_dvd : ∀ k0_t3 : Fin k0_t3_loop.trips, 256 ∣ (k0_mult3 k0_t3).toNat
  k0_off4_inb : ∀ k0_t3 : Fin k0_t3_loop.trips, ∀ a, (k0_off4 k0_t3) a + S256x128.size a ≤ S2048x128.size a
  k0_t4_ok : k0_t4_loop.OK
  k0_mult4_dvd : ∀ k0_t4 : Fin k0_t4_loop.trips, 256 ∣ (k0_mult4 k0_t4).toNat
  k0_off5_inb : ∀ k0_t4 : Fin k0_t4_loop.trips, ∀ a, (k0_off5 k0_t4) a + S256x128.size a ≤ S2048x128.size a
  k0_off6_inb : ∀ k0_t4 : Fin k0_t4_loop.trips, ∀ a, (k0_off6 k0_t4) a + S256x1.size a ≤ S2048x1.size a
  k0_t5_ok : k0_t5_loop.OK
  k0_mult5_dvd : ∀ k0_t5 : Fin k0_t5_loop.trips, 256 ∣ (k0_mult5 k0_t5).toNat
  k0_off7_inb : ∀ k0_t5 : Fin k0_t5_loop.trips, ∀ a, (k0_off7 k0_t5) a + S256x128.size a ≤ S2048x128.size a
  k0_t6_ok : k0_t6_loop.OK
  k0_mult6_dvd : ∀ k0_t6 : Fin k0_t6_loop.trips, 256 ∣ (k0_mult6 k0_t6).toNat
  k0_off8_inb : ∀ k0_t6 : Fin k0_t6_loop.trips, ∀ a, (k0_off8 k0_t6) a + S256x128.size a ≤ S2048x128.size a
  k0_off9_inb : ∀ k0_t6 : Fin k0_t6_loop.trips, ∀ a, (k0_off9 k0_t6) a + S256x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S128x128 : Shape := ⟨2, ![128, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S128x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x128, .f32⟩
  | .hbm, ⟨11, _⟩ => ⟨S8x2048x128, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .i1⟩
  | .hbm, ⟨16, _⟩ => ⟨S_, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x128, .f32⟩
  | .hbm, ⟨33, _⟩ => ⟨S8x2048x128, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x128, .f32⟩
  | .hbm, ⟨42, _⟩ => ⟨S8x2048x128, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .i1⟩
  | .hbm, ⟨47, _⟩ => ⟨S_, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x1x2048, .f32⟩
  | .hbm, ⟨61, _⟩ => ⟨S8x2048x2048, .f32⟩
  | .hbm, ⟨62, _⟩ => ⟨S8x2048x2048, .f32⟩
  | .hbm, ⟨63, _⟩ => ⟨S8x2048x128, .f32⟩
  | .hbm, ⟨64, _⟩ => ⟨S8x2048x128, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x128, .f32⟩
  | .hbm, ⟨73, _⟩ => ⟨S8x2048x128, .f32⟩
  | .hbm, ⟨74, _⟩ => ⟨S8x2048x2048, .f32⟩
  | .hbm, ⟨75, _⟩ => ⟨S_, .f32⟩
  | .hbm, ⟨76, _⟩ => ⟨S8x2048x2048, .f32⟩
  | .hbm, ⟨77, _⟩ => ⟨S8x2048x2048, .i1⟩
  | .hbm, ⟨78, _⟩ => ⟨S_, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048, .f32⟩
  | .hbm, ⟨85, _⟩ => ⟨S_, .f32⟩
  | .hbm, ⟨86, _⟩ => ⟨S8x2048, .f32⟩
  | .hbm, ⟨87, _⟩ => ⟨S8x2048, .f32⟩
  | .hbm, ⟨88, _⟩ => ⟨S8x2048x1, .f32⟩
  | .hbm, ⟨89, _⟩ => ⟨S8x2048x2048, .f32⟩
  | .hbm, ⟨90, _⟩ => ⟨S8x2048x2048, .f32⟩
  | .hbm, ⟨91, _⟩ => ⟨S8x1x2048, .f32⟩
  | .hbm, ⟨92, _⟩ => ⟨S8x2048x2048, .f32⟩
  | .hbm, ⟨93, _⟩ => ⟨S8x2048x2048, .f32⟩
  | .hbm, ⟨94, _⟩ => ⟨S8x2048x128, .f32⟩
  | .hbm, ⟨95, _⟩ => ⟨S8x2048x128, .f32⟩
  | .hbm, ⟨96, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_call2_v2 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call4_v0 : Ref sig .tc := ⟨.hbm, 64, rfl⟩
abbrev main_call4_cst : Ref sig .tc := ⟨.hbm, 65, rfl⟩
abbrev main_call4_v1 : Ref sig .tc := ⟨.hbm, 66, rfl⟩
abbrev main_call4_v2 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_call5_v0 : Ref sig .tc := ⟨.hbm, 79, rfl⟩
abbrev main_call5_v1 : Ref sig .tc := ⟨.hbm, 80, rfl⟩
abbrev main_v48 : Ref sig .tc := ⟨.hbm, 81, rfl⟩
abbrev main_cst_12 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]
  dot_S8x2048x128_S128x128_S8x2048x128_2_0_01_1_n_n_wf : DotDims.WF S8x2048x128 S128x128 S8x2048x128 [2] [0] [0, 1] [1] [] []

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf

class Facts : Prop extends Facts₀ where

variable [Facts]
-- ==== Proof.GraphStep.lean ====
/-
  One propagation step of the graph convolution, as pure mathematics over the extended reals.

  Rows of the feature matrix `h` are scaled to unit length (by `max(‖h n‖, ε)`), the Gram matrix of the unit
  rows is thresholded (entries not above `t` become zero), each row's kept entries are summed to its degree
  `d n`, and the features are propagated through `D^{-1/2} A D^{-1/2}`.

  Two arrangements of the same step are compared. In `stepK` the unit rows are `h · (1 / max(‖h‖, ε))` and
  the left factor `d n ^ {-1/2}` multiplies the finished sum over `m`; in `stepR` the unit rows are
  `h / max(‖h‖, ε)` and both factors `d n ^ {-1/2}`, `d m ^ {-1/2}` multiply the adjacency entry before the sum.
  On the extended reals a factor may be moved across a sum only with care: `d n ^ {-1/2}` is `⊤` when the
  degree is zero. But a zero degree means that every kept entry of row `n` (all are nonnegative) is zero, and
  by symmetry of the Gram matrix so is every entry of column `n`; so wherever the infinite factor occurs it
  meets a zero, and the two arrangements agree on every real-valued `h` and give a real-valued result.
-/
import Idealize.ShloMosaic.PureOps.Ideal

noncomputable section

namespace GraphStep

open Idealize.ShloMosaic
open scoped BigOperators

variable {ι κ : Type} [Fintype ι] [Fintype κ]

/-- `max(‖h n‖, ε)`: the length of row `n`, kept away from zero. -/
def rowNorm (ε : EReal) (h : ι → κ → EReal) (n : ι) : EReal :=
  max (Ideal.sqrt (∑ f, h n f * h n f)) ε

/-- Unit rows by a product with the reciprocal length. -/
def unitMul (ε : EReal) (h : ι → κ → EReal) : ι → κ → EReal :=
  fun n f => h n f * Ideal.div 1 (rowNorm ε h n)

/-- Unit rows by a quotient. -/
def unitDiv (ε : EReal) (h : ι → κ → EReal) : ι → κ → EReal :=
  fun n f => Ideal.div (h n f) (rowNorm ε h n)

/-- The Gram matrix of the rows. -/
def gram (u : ι → κ → EReal) : ι → ι → EReal := fun n m => ∑ f, u n f * u m f

/-- An entry is kept when it is strictly above the threshold, else replaced by zero. -/
def keepAbove (t a : EReal) : EReal := if t < a then a else 0

/-- The thresholded Gram matrix. -/
def adjacency (t : EReal) (u : ι → κ → EReal) : ι → ι → EReal := fun n m => keepAbove t (gram u n m)

/-- Row sums. -/
def degree (A : ι → ι → EReal) : ι → EReal := fun n => ∑ m, A n m

/-- `d ^ {-1/2}` as `1 / sqrt d` (at `d = 0` it is `⊤`). -/
def invSqrt (d : EReal) : EReal := Ideal.div 1 (Ideal.sqrt d)

/-- The propagated features with the row factor outside the sum. -/
def propOuter (A : ι → ι → EReal) (s : ι → EReal) (h : ι → κ → EReal) : ι → κ → EReal :=
  fun n f => s n * ∑ m, A n m * (h m f * s m)

/-- The propagated features with both factors on the adjacency entry. -/
def propInner (A : ι → ι → EReal) (s : ι → EReal) (h : ι → κ → EReal) : ι → κ → EReal :=
  fun n f => ∑ m, ((A n m * s n) * s m) * h m f

/-- One step, first arrangement. -/
def stepK (ε t : EReal) (h : ι → κ → EReal) : ι → κ → EReal :=
  propOuter (adjacency t (unitMul ε h)) (fun n => invSqrt (degree (adjacency t (unitMul ε h)) n)) h

/-- One step, second arrangement. -/
def stepR (ε t : EReal) (h : ι → κ → EReal) : ι → κ → EReal :=
  propInner (adjacency t (unitDiv ε h)) (fun n => invSqrt (degree (adjacency t (unitDiv ε h)) n)) h

/-- Every entry is a real number. -/
def IsReal (h : ι → κ → EReal) : Prop := ∀ n f, ∃ r : ℝ, h n f = (r : EReal)

/-- A positive real, as an extended real. -/
def IsPosReal (x : EReal) : Prop := ∃ r : ℝ, 0 < r ∧ x = (r : EReal)

/-- The coercion of a finite sum of reals is the sum of the coercions. -/
private theorem coe_sum {α : Type} (s : Finset α) (g : α → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion of the larger of two reals is the larger of the coercions. -/
private theorem coe_max (a b : ℝ) : ((max a b : ℝ) : EReal) = max (a : EReal) (b : EReal) :=
  (EReal.coe_strictMono.monotone).map_max

/-- The row length is at least `ε`, so it is not zero when `ε` is positive. -/
private theorem rowNorm_ne_zero {ε : EReal} (hε : IsPosReal ε) (h : ι → κ → EReal) (n : ι) : rowNorm ε h n ≠ 0 := by
  obtain ⟨r, hr, rfl⟩ := hε
  have h1 : ((r : ℝ) : EReal) ≤ rowNorm (r : EReal) h n := le_max_right _ _
  have h2 : (0 : EReal) < (r : EReal) := EReal.coe_pos.mpr hr
  exact (lt_of_lt_of_le h2 h1).ne'

/-- The product with the reciprocal length is the quotient by the length: the length is at least `ε > 0`,
    so it is never zero, and off zero `Ideal.div x y` is `x * y⁻¹`. No finiteness is needed. -/
theorem unitMul_eq_unitDiv {ε : EReal} (hε : IsPosReal ε) (h : ι → κ → EReal) : unitMul ε h = unitDiv ε h := by
  funext n f
  have hne := rowNorm_ne_zero hε h n
  unfold unitMul unitDiv Ideal.div
  rw [if_neg hne, if_neg hne, one_mul]

/-- The core of the comparison, over a real matrix `A` and real features `hr`. The factors `s n` may be
    infinite, but only at an index whose row and column of `A` vanish; elsewhere `s n` is the real `s' n`.
    Then both arrangements equal the same real-valued expression. -/
private theorem prop_core (A : ι → ι → ℝ) (s : ι → EReal) (s' : ι → ℝ) (hr : ι → κ → ℝ)
    (H : ∀ n, s n = (s' n : EReal) ∨ ((∀ m, A n m = 0) ∧ (∀ m, A m n = 0))) :
    propOuter (fun n m => (A n m : EReal)) s (fun n f => (hr n f : EReal))
        = (fun n f => ((∑ m, A n m * s' n * s' m * hr m f : ℝ) : EReal))
      ∧ propInner (fun n m => (A n m : EReal)) s (fun n f => (hr n f : EReal))
        = (fun n f => ((∑ m, A n m * s' n * s' m * hr m f : ℝ) : EReal)) := by
  constructor
  · funext n f
    unfold propOuter
    have hterm : ∀ m, (A n m : EReal) * ((hr m f : EReal) * s m) = ((A n m * (hr m f * s' m) : ℝ) : EReal) := by
      intro m
      by_cases h0 : A n m = 0
      · rw [h0]; simp
      · rcases H m with hm | hm
        · rw [hm, EReal.coe_mul, EReal.coe_mul]
        · exact absurd (hm.2 n) h0
    have hsum : (∑ m, (A n m : EReal) * ((hr m f : EReal) * s m))
        = ((∑ m, A n m * (hr m f * s' m) : ℝ) : EReal) := by
      rw [coe_sum]
      exact Finset.sum_congr rfl (fun m _ => hterm m)
    rw [hsum]
    rcases H n with hn | hn
    · rw [hn, ← EReal.coe_mul]
      congr 1
      rw [Finset.mul_sum]
      exact Finset.sum_congr rfl (fun m _ => by ring)
    · have z1 : (∑ m, A n m * (hr m f * s' m) : ℝ) = 0 :=
        Finset.sum_eq_zero (fun m _ => by rw [hn.1 m, zero_mul])
      have z2 : (∑ m, A n m * s' n * s' m * hr m f : ℝ) = 0 :=
        Finset.sum_eq_zero (fun m _ => by rw [hn.1 m]; ring)
      rw [z1, z2, EReal.coe_zero, mul_zero]
  · funext n f
    unfold propInner
    rw [coe_sum]
    refine Finset.sum_congr rfl (fun m _ => ?_)
    show (A n m : EReal) * s n * s m * (hr m f : EReal) = ((A n m * s' n * s' m * hr m f : ℝ) : EReal)
    by_cases h0 : A n m = 0
    · rw [h0]; simp
    · rcases H n with hn | hn
      · rcases H m with hm | hm
        · rw [hn, hm, EReal.coe_mul, EReal.coe_mul, EReal.coe_mul]
        · exact absurd (hm.2 n) h0
      · exact absurd (hn.1 m) h0

/-- The real row length. -/
private def rowNormR (e : ℝ) (hr : ι → κ → ℝ) (n : ι) : ℝ := max (Real.sqrt (∑ f, hr n f * hr n f)) e

/-- The real unit rows. -/
private def unitR (e : ℝ) (hr : ι → κ → ℝ) : ι → κ → ℝ := fun n f => hr n f / rowNormR e hr n

/-- The real Gram matrix. -/
private def gramR (u : ι → κ → ℝ) : ι → ι → ℝ := fun n m => ∑ f, u n f * u m f

/-- The real thresholded Gram matrix. -/
private def adjR (τ : ℝ) (u : ι → κ → ℝ) : ι → ι → ℝ := fun n m => if τ < gramR u n m then gramR u n m else 0

/-- The real degrees. -/
private def degR (τ : ℝ) (u : ι → κ → ℝ) : ι → ℝ := fun n => ∑ m, adjR τ u n m

private theorem rowNormR_pos {e : ℝ} (he : 0 < e) (hr : ι → κ → ℝ) (n : ι) : 0 < rowNormR e hr n :=
  lt_of_lt_of_le he (le_max_right _ _)

/-- On real features the row length is the real row length (a sum of squares is not negative). -/
private theorem rowNorm_coe (e : ℝ) (hr : ι → κ → ℝ) (n : ι) :
    rowNorm (e : EReal) (fun n f => (hr n f : EReal)) n = (rowNormR e hr n : EReal) := by
  have hs : (∑ f, (hr n f : EReal) * (hr n f : EReal)) = ((∑ f, hr n f * hr n f : ℝ) : EReal) := by
    rw [coe_sum]; exact Finset.sum_congr rfl (fun f _ => (EReal.coe_mul _ _).symm)
  have hnn : ¬ (∑ f, hr n f * hr n f : ℝ) < 0 :=
    not_lt.mpr (Finset.sum_nonneg (fun f _ => mul_self_nonneg _))
  show max (Ideal.sqrt (∑ f, (hr n f : EReal) * (hr n f : EReal))) (e : EReal) = _
  rw [hs, Ideal.sqrt_coe, if_neg hnn, rowNormR, coe_max]

/-- On real features the unit rows are real. -/
private theorem unitDiv_coe {e : ℝ} (he : 0 < e) (hr : ι → κ → ℝ) :
    unitDiv (e : EReal) (fun n f => (hr n f : EReal)) = fun n f => (unitR e hr n f : EReal) := by
  funext n f
  show Ideal.div (hr n f : EReal) (rowNorm (e : EReal) (fun n f => (hr n f : EReal)) n) = _
  rw [rowNorm_coe, Ideal.div_coe (rowNormR_pos he hr n).ne', ← EReal.coe_mul, unitR, mul_one_div]

/-- The Gram matrix of real rows is real. -/
private theorem gram_coe (u : ι → κ → ℝ) :
    gram (fun n f => (u n f : EReal)) = fun n m => (gramR u n m : EReal) := by
  funext n m
  show (∑ f, (u n f : EReal) * (u m f : EReal)) = _
  rw [gramR, coe_sum]
  exact Finset.sum_congr rfl (fun f _ => (EReal.coe_mul _ _).symm)

/-- Thresholding a real entry at a real threshold gives a real entry. -/
private theorem keepAbove_coe (τ a : ℝ) : keepAbove (τ : EReal) (a : EReal) = ((if τ < a then a else 0 : ℝ) : EReal) := by
  unfold keepAbove
  by_cases h : τ < a
  · rw [if_pos h, if_pos (EReal.coe_lt_coe_iff.mpr h)]
  · rw [if_neg h, if_neg (fun h' => h (EReal.coe_lt_coe_iff.mp h')), EReal.coe_zero]

/-- The thresholded Gram matrix of real rows is real. -/
private theorem adjacency_coe (τ : ℝ) (u : ι → κ → ℝ) :
    adjacency (τ : EReal) (fun n f => (u n f : EReal)) = fun n m => (adjR τ u n m : EReal) := by
  funext n m
  show keepAbove (τ : EReal) (gram (fun n f => (u n f : EReal)) n m) = _
  rw [gram_coe, keepAbove_coe, adjR]

/-- The degrees of a real matrix are real. -/
private theorem degree_coe (τ : ℝ) (u : ι → κ → ℝ) (n : ι) :
    degree (fun n m => (adjR τ u n m : EReal)) n = (degR τ u n : EReal) := by
  show (∑ m, (adjR τ u n m : EReal)) = _
  rw [degR, coe_sum]

private theorem gramR_symm (u : ι → κ → ℝ) (n m : ι) : gramR u n m = gramR u m n :=
  Finset.sum_congr rfl (fun f _ => mul_comm _ _)

private theorem adjR_symm (τ : ℝ) (u : ι → κ → ℝ) (n m : ι) : adjR τ u n m = adjR τ u m n := by
  unfold adjR; rw [gramR_symm u n m]

/-- A kept entry is above a positive threshold; a dropped one is zero. -/
private theorem adjR_nonneg {τ : ℝ} (hτ : 0 < τ) (u : ι → κ → ℝ) (n m : ι) : 0 ≤ adjR τ u n m := by
  unfold adjR
  split_ifs with h
  · exact (lt_trans hτ h).le
  · exact le_rfl

/-- A zero degree means a zero row, and by symmetry a zero column. -/
private theorem adjR_zero_of_degR_zero {τ : ℝ} (hτ : 0 < τ) (u : ι → κ → ℝ) (n : ι) (hd : degR τ u n = 0) :
    (∀ m, adjR τ u n m = 0) ∧ (∀ m, adjR τ u m n = 0) := by
  have h1 : ∀ m, adjR τ u n m = 0 := fun m =>
    (Finset.sum_eq_zero_iff_of_nonneg (fun m _ => adjR_nonneg hτ u n m)).mp hd m (Finset.mem_univ m)
  exact ⟨h1, fun m => by rw [adjR_symm]; exact h1 m⟩

private theorem degR_nonneg {τ : ℝ} (hτ : 0 < τ) (u : ι → κ → ℝ) (n : ι) : 0 ≤ degR τ u n :=
  Finset.sum_nonneg (fun m _ => adjR_nonneg hτ u n m)

/-- At a positive real degree, `d ^ {-1/2}` is the real `(sqrt d)⁻¹`. -/
private theorem invSqrt_coe {d : ℝ} (hd : 0 < d) : invSqrt (d : EReal) = (((Real.sqrt d)⁻¹ : ℝ) : EReal) := by
  unfold invSqrt
  rw [Ideal.sqrt_coe, if_neg (not_lt.mpr hd.le), Ideal.div_coe (Real.sqrt_pos.mpr hd).ne', one_mul, one_div]

/-- The two arrangements of one step agree on real-valued features, and the result is real-valued. -/
theorem step_eq {ε t : EReal} (hε : IsPosReal ε) (ht : IsPosReal t) {h : ι → κ → EReal} (hh : IsReal h) :
    stepK ε t h = stepR ε t h ∧ IsReal (stepR ε t h) := by
  obtain ⟨e, he, rfl⟩ := hε
  obtain ⟨τ, hτ, rfl⟩ := ht
  choose hr hhr using hh
  have hh' : h = fun n f => (hr n f : EReal) := by funext n f; exact hhr n f
  subst hh'
  unfold stepK stepR
  rw [unitMul_eq_unitDiv ⟨e, he, rfl⟩, unitDiv_coe he, adjacency_coe]
  have H : ∀ n, invSqrt (degree (fun n m => (adjR τ (unitR e hr) n m : EReal)) n)
        = (((Real.sqrt (degR τ (unitR e hr) n))⁻¹ : ℝ) : EReal)
      ∨ ((∀ m, adjR τ (unitR e hr) n m = 0) ∧ (∀ m, adjR τ (unitR e hr) m n = 0)) := by
    intro n
    by_cases hd : degR τ (unitR e hr) n = 0
    · exact Or.inr (adjR_zero_of_degR_zero hτ _ n hd)
    · left
      rw [degree_coe]
      exact invSqrt_coe (lt_of_le_of_ne (degR_nonneg hτ _ n) (Ne.symm hd))
  obtain ⟨h1, h2⟩ := prop_core (adjR τ (unitR e hr))
    (fun n => invSqrt (degree (fun n m => (adjR τ (unitR e hr) n m : EReal)) n))
    (fun n => (Real.sqrt (degR τ (unitR e hr) n))⁻¹) hr H
  rw [h1, h2]
  exact ⟨rfl, fun n f => ⟨_, rfl⟩⟩

/-- Three steps in a row, at three thresholds. -/
theorem three_steps {ε t₁ t₂ t₃ : EReal} (hε : IsPosReal ε) (h₁ : IsPosReal t₁) (h₂ : IsPosReal t₂) (h₃ : IsPosReal t₃)
    {h : ι → κ → EReal} (hh : IsReal h) :
    stepK ε t₃ (stepK ε t₂ (stepK ε t₁ h)) = stepR ε t₃ (stepR ε t₂ (stepR ε t₁ h)) := by
  obtain ⟨e₁, r₁⟩ := step_eq hε h₁ hh
  rw [e₁]
  obtain ⟨e₂, r₂⟩ := step_eq hε h₂ r₁
  rw [e₂]
  exact (step_eq hε h₃ r₂).1

variable {κ' : Type} [Fintype κ']

/-- The whole computation, first arrangement: three steps, the input added back, and a product with the weights. -/
def outK (ε t₁ t₂ t₃ : EReal) (x : ι → κ → EReal) (w : κ → κ' → EReal) : ι → κ' → EReal :=
  fun n o => ∑ f, (stepK ε t₃ (stepK ε t₂ (stepK ε t₁ x)) n f + x n f) * w f o

/-- The whole computation, second arrangement. -/
def outR (ε t₁ t₂ t₃ : EReal) (x : ι → κ → EReal) (w : κ → κ' → EReal) : ι → κ' → EReal :=
  fun n o => ∑ f, (stepR ε t₃ (stepR ε t₂ (stepR ε t₁ x)) n f + x n f) * w f o

/-- The two arrangements of the whole computation agree on real-valued features, whatever the weights. -/
theorem out_eq {ε t₁ t₂ t₃ : EReal} (hε : IsPosReal ε) (h₁ : IsPosReal t₁) (h₂ : IsPosReal t₂) (h₃ : IsPosReal t₃)
    {x : ι → κ → EReal} (hx : IsReal x) (w : κ → κ' → EReal) :
    outK ε t₁ t₂ t₃ x w = outR ε t₁ t₂ t₃ x w := by
  unfold outK outR
  rw [three_steps hε h₁ h₂ h₃ hx]

end GraphStep

end
-- ==== Proof.Consts.lean ====
/-
  The float literals of the two programs, read as extended reals: the clamp `ε` of a row's length, the three
  thresholds, one and zero. Each of the first four is a positive real number; the last two are `1` and `0`.
  A 32-bit pattern with sign bit clear and an exponent field `e` that is neither all zeros nor all ones denotes
  `(2^23 + m) · 2^(e - 150)` for its mantissa field `m`, which is positive.
-/
import Idealize.ShloMosaic.PureOps.Ideal
import Idealize.ShloMosaic.PureOps.Ideal.Laws
import proofs.«122685_j35759897706671_1_alg».proof.Proof.GraphStep

noncomputable section

namespace GraphConsts

open Idealize.ShloMosaic

/-- A normal positive single-precision pattern denotes a positive real. -/
theorem pos_of_fields (b : BitVec 32) (e m : ℕ) (h1 : (b.extractLsb' 23 8).toNat = e) (h2 : (b.extractLsb' 0 23).toNat = m)
    (h3 : (b.extractLsb' (8 + 23) 1 == 1#1) = false) (he : e ≠ 2 ^ 8 - 1) (he0 : e ≠ 0) :
    GraphStep.IsPosReal (Ideal.ofBits .f32 b) := by
  unfold GraphStep.IsPosReal
  simp only [Ideal.ofBits, Ideal.ieee, h1, h2, h3, if_neg he, if_neg he0]
  refine ⟨_, ?_, rfl⟩
  simp only [Bool.false_eq_true, if_false]
  positivity

/-- The clamp of a row's length (about `1e-8`). -/
def eps : EReal := Ideal.ofBits .f32 0x322BCC77#32
/-- The first threshold (about `0.05`). -/
def thr₁ : EReal := Ideal.ofBits .f32 0x3D4CCCCD#32
/-- The second threshold (about `0.1`). -/
def thr₂ : EReal := Ideal.ofBits .f32 0x3DCCCCCD#32
/-- The third threshold (about `0.15`). -/
def thr₃ : EReal := Ideal.ofBits .f32 0x3E19999A#32

theorem eps_pos : GraphStep.IsPosReal eps :=
  pos_of_fields _ 100 0x2BCC77 (by decide) (by decide) (by decide) (by decide) (by decide)
theorem thr₁_pos : GraphStep.IsPosReal thr₁ :=
  pos_of_fields _ 122 0x4CCCCD (by decide) (by decide) (by decide) (by decide) (by decide)
theorem thr₂_pos : GraphStep.IsPosReal thr₂ :=
  pos_of_fields _ 123 0x4CCCCD (by decide) (by decide) (by decide) (by decide) (by decide)
theorem thr₃_pos : GraphStep.IsPosReal thr₃ :=
  pos_of_fields _ 124 0x19999A (by decide) (by decide) (by decide) (by decide) (by decide)

/-- The pattern of `1.0`. -/
theorem one_eq : Ideal.ofBits .f32 0x3F800000#32 = 1 := by
  have h1 : ((0x3F800000#32 : BitVec 32).extractLsb' 23 8).toNat = 127 := by decide
  have h2 : ((0x3F800000#32 : BitVec 32).extractLsb' 0 23).toNat = 0 := by decide
  have h3 : ((0x3F800000#32 : BitVec 32).extractLsb' (8 + 23) 1 == 1#1) = false := by decide
  simp only [Ideal.ofBits, Ideal.ieee, h1, h2, h3]
  norm_num

/-- The pattern of `0.0`. -/
theorem zero_eq : Ideal.ofBits .f32 0x00000000#32 = 0 := Ideal.ofBits_zero_f32

end GraphConsts

end
-- ==== Proof.Finite.lean ====
/-
  Finite inputs are real numbers. The precondition says that every entry of the two inputs has absolute value below
  `+∞` (the pattern `0x7F800000`), all of them at once by a conjunction over each array. At the exact instance an
  entry is an extended real, its absolute value is `max x (-x)`, and `max x (-x) < ⊤` rules out both infinities:
  so every entry of the first input is the coercion of a real.
-/
import proofs.«122685_j35759897706671_1_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Proof.Finite

open Idealize.ShloMosaic Cert.Pre_finite_inputs

instance : Subsingleton S_.Idx := ⟨fun a b => funext fun d => d.elim0⟩

/-- The pattern of `+∞`. -/
theorem inf_eq : Ideal.ofBits .f32 0x7F800000#32 = ⊤ := by
  simp [Ideal.ofBits, Ideal.ieee]

/-- An extended real whose absolute value is below `+∞` is a real. -/
theorem real_of_abs_lt (x : EReal) (h : max x (-x) < ⊤) : ∃ r : ℝ, x = (r : EReal) := by
  induction x using EReal.rec with
  | bot => simp at h
  | top => simp at h
  | coe r => exact ⟨r, rfl⟩

/-- Under the precondition every entry of the first input is a real. -/
theorem input_real [Facts] (a0 : FVec Ideal S8x2048x128 .f32) (a1 : FVec Ideal S128x128 .f32)
    (h : fn (F := Ideal) a0 a1 = fun _ => 1#1) (i : S8x2048x128.Idx) : ∃ r : ℝ, a0 i = (r : EReal) := by
  have h0 := congrFun h ValueIdx.ix0
  dsimp only [fn] at h0
  obtain ⟨h1, -⟩ := IntOp.andi_eq_one.1 h0
  have hi := Host.reduce_andi_all _ _ _ _ _ h1 i
  rw [ValueIdx.cmpf_apply, Ideal.cmpf_def] at hi
  simp only [Host.absf, Ideal.hostAbsf_def, broadcastInDim, constant, Ideal.cmp] at hi
  simp only [Ideal.ofBits_def, inf_eq] at hi
  have hlt : FloatOps.absf (F := Ideal) (a0 i) < (⊤ : EReal) := by
    by_contra hc
    simp [hc] at hi
  exact real_of_abs_lt (a0 i) hlt

end Cert.Proof.Finite

end
-- ==== Proof.RefValue.lean ====
/-
  The reference program's result read at one index.

  The reference applies three propagation steps to the feature rows of one batch entry and multiplies the sum of the
  last step's features and the input by the weight matrix. Each step scales every row to unit length (by the
  larger of its length and a small positive constant), forms the Gram matrix of the unit rows, replaces every entry
  not above a threshold by zero, sums each row of the kept entries to its degree, and propagates the features through
  the kept matrix with both inverse square roots of the degrees on the entry. Read at the index (b, n, o), stage by
  stage, this is `GraphStep.outR` of the rows of batch entry b and of the weights, at (n, o).
-/
import proofs.«122685_j35759897706671_1_alg».proof.Proof.RefRead
import proofs.«122685_j35759897706671_1_alg».proof.Proof.GraphStep
import proofs.«122685_j35759897706671_1_alg».proof.Proof.Consts
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.ReadP
open scoped BigOperators

/-- A select on "strictly above the threshold" between an entry and zero keeps the entry exactly when it is above. -/
theorem select_above (g t : EReal) :
    Scalar.select (FloatOps.cmpf (F := Ideal) (φ := .f32) .ogt g t) g (FloatOps.ofBits (F := Ideal) .f32 0x00000000#32)
      = GraphStep.keepAbove t g := by
  unfold GraphStep.keepAbove
  rw [Ideal.cmpf_def, Ideal.ofBits_def, GraphConsts.zero_eq]
  unfold Ideal.cmp
  by_cases h : t < g
  · rw [if_pos h]
    simp only [h, decide_true, BitVec.ofBool_true]
    exact select_one _ _
  · rw [if_neg h]
    simp only [h, decide_false, BitVec.ofBool_false]
    exact select_zero _ _

/-! ## Step 1: the stages from the row lengths to the propagated features -/

/-- The clamped length of row n. -/
theorem norm1 (x0 : (⟨S8x2048x128, .f32⟩ : BufTy).Contents (Elt Ideal)) (b : Fin 8) (n : Fin 2048) (z : Fin 1) :
    val_main_v2 (F := Ideal) x0 (ix3 b n z)
      = GraphStep.rowNorm GraphConsts.eps (fun n f => x0 (ix3 b n f)) n := by
  rw [val_main_v2_apply, val_main_v0_apply, val_main_call0_v2_apply, val_main_call0_v1_apply, val_main_v1_apply, val_main_cst_apply, val_main_call0_cst_apply]
  simp only [Ideal.maximumf_def, Ideal.hostUnary_sqrt_def, Ideal.ofBits_def, GraphConsts.zero_eq, zero_add,
    val_main_call0_v0_apply, Ideal.mulf_def]
  unfold GraphStep.rowNorm GraphConsts.eps
  refine congrArg (fun s => max (Ideal.sqrt s) _) (Finset.sum_congr rfl fun k _ => ?_)
  have e : idx_main_call0_v1 (idx_main_call0_v2 (ix3 b n z)) k = ix3 b n k :=
    funext fun a => by match a with | ⟨0, _⟩ => rfl | ⟨1, _⟩ => rfl | ⟨2, _⟩ => rfl
  rw [e]

/-- The unit rows. -/
theorem unit1 (x0 : (⟨S8x2048x128, .f32⟩ : BufTy).Contents (Elt Ideal)) (b : Fin 8) (n : Fin 2048) (f : Fin 128) :
    val_main_v4 (F := Ideal) x0 (ix3 b n f) = GraphStep.unitDiv GraphConsts.eps (fun n f => x0 (ix3 b n f)) n f := by
  have e : idx_main_v3 (ix3 b n f) = ix3 b n (0 : Fin 1) :=
    funext fun a => by match a with | ⟨0, _⟩ => rfl | ⟨1, _⟩ => rfl | ⟨2, _⟩ => rfl
  rw [val_main_v4_apply, val_main_v3_apply, e, norm1, Ideal.hostDivf_def]
  rfl

/-- The Gram matrix of the unit rows. -/
theorem gram1 (x0 : (⟨S8x2048x128, .f32⟩ : BufTy).Contents (Elt Ideal)) (b : Fin 8) (n m : Fin 2048) :
    val_main_v5 (F := Ideal) x0 (ix3 b n m) = GraphStep.gram (GraphStep.unitDiv GraphConsts.eps (fun n f => x0 (ix3 b n f))) n m := by
  rw [val_main_v5_apply]
  unfold GraphStep.gram
  refine Finset.sum_congr rfl fun k _ => ?_
  have el : lidx_main_v5 (ix3 b n m) k = ix3 b n k :=
    funext fun a => by match a with | ⟨0, _⟩ => rfl | ⟨1, _⟩ => rfl | ⟨2, _⟩ => rfl
  have er : ridx_main_v5 (ix3 b n m) k = ix3 b m k :=
    funext fun a => by match a with | ⟨0, _⟩ => rfl | ⟨1, _⟩ => rfl | ⟨2, _⟩ => rfl
  rw [el, er, unit1, unit1]

/-- The kept entries. -/
theorem kept1 (x0 : (⟨S8x2048x128, .f32⟩ : BufTy).Contents (Elt Ideal)) (b : Fin 8) (n m : Fin 2048) :
    val_main_v8 (F := Ideal) x0 (ix3 b n m) = GraphStep.adjacency GraphConsts.thr₁ (GraphStep.unitDiv GraphConsts.eps (fun n f => x0 (ix3 b n f))) n m := by
  rw [val_main_v8_apply, val_main_v7_apply, val_main_v6_apply, val_main_cst_0_apply, val_main_call1_v1_apply, val_main_call1_v0_apply, val_main_cst_1_apply,
    gram1]
  exact select_above _ _

/-- The degrees. -/
theorem degree1 (x0 : (⟨S8x2048x128, .f32⟩ : BufTy).Contents (Elt Ideal)) (b : Fin 8) (n : Fin 2048) :
    val_main_v9 (F := Ideal) x0 (ix2 b n) = GraphStep.degree (GraphStep.adjacency GraphConsts.thr₁ (GraphStep.unitDiv GraphConsts.eps (fun n f => x0 (ix3 b n f)))) n := by
  rw [val_main_v9_apply, val_main_cst_2_apply, Ideal.ofBits_def, GraphConsts.zero_eq, zero_add]
  unfold GraphStep.degree
  refine Finset.sum_congr rfl fun k _ => ?_
  have e : idx_main_v9 (ix2 b n) k = ix3 b n k :=
    funext fun a => by match a with | ⟨0, _⟩ => rfl | ⟨1, _⟩ => rfl | ⟨2, _⟩ => rfl
  rw [e, kept1]

/-- The inverse square roots of the degrees. -/
theorem invs1 (x0 : (⟨S8x2048x128, .f32⟩ : BufTy).Contents (Elt Ideal)) (b : Fin 8) (n : Fin 2048) :
    val_main_v12 (F := Ideal) x0 (ix2 b n) = GraphStep.invSqrt (GraphStep.degree (GraphStep.adjacency GraphConsts.thr₁ (GraphStep.unitDiv GraphConsts.eps (fun n f => x0 (ix3 b n f)))) n) := by
  rw [val_main_v12_apply, val_main_v11_apply, val_main_cst_3_apply, val_main_v10_apply, degree1, Ideal.hostDivf_def,
    Ideal.hostUnary_sqrt_def, Ideal.ofBits_def, GraphConsts.one_eq]
  rfl

/-- The kept entries with both factors. -/
theorem scaled1 (x0 : (⟨S8x2048x128, .f32⟩ : BufTy).Contents (Elt Ideal)) (b : Fin 8) (n m : Fin 2048) :
    val_main_v18 (F := Ideal) x0 (ix3 b n m)
      = ((GraphStep.adjacency GraphConsts.thr₁ (GraphStep.unitDiv GraphConsts.eps (fun n f => x0 (ix3 b n f)))) n m * GraphStep.invSqrt (GraphStep.degree (GraphStep.adjacency GraphConsts.thr₁ (GraphStep.unitDiv GraphConsts.eps (fun n f => x0 (ix3 b n f)))) n)) * GraphStep.invSqrt (GraphStep.degree (GraphStep.adjacency GraphConsts.thr₁ (GraphStep.unitDiv GraphConsts.eps (fun n f => x0 (ix3 b n f)))) m) := by
  have e1 : idx_main_v13 (idx_main_v14 (ix3 b n m)) = ix2 b n :=
    funext fun a => by match a with | ⟨0, _⟩ => rfl | ⟨1, _⟩ => rfl
  have e2 : idx_main_v16 (idx_main_v17 (ix3 b n m)) = ix2 b m :=
    funext fun a => by match a with | ⟨0, _⟩ => rfl | ⟨1, _⟩ => rfl
  rw [val_main_v18_apply, val_main_v15_apply, val_main_v14_apply, val_main_v13_apply, val_main_v17_apply, val_main_v16_apply, e1, e2,
    kept1, invs1, invs1, Ideal.mulf_def, Ideal.mulf_def]

/-- The propagated features. -/
theorem step1 (x0 : (⟨S8x2048x128, .f32⟩ : BufTy).Contents (Elt Ideal)) (b : Fin 8) (n : Fin 2048) (f : Fin 128) :
    val_main_v19 (F := Ideal) x0 (ix3 b n f) = GraphStep.stepR GraphConsts.eps GraphConsts.thr₁ (fun n f => x0 (ix3 b n f)) n f := by
  rw [val_main_v19_apply]
  unfold GraphStep.stepR GraphStep.propInner
  refine Finset.sum_congr rfl fun k _ => ?_
  have el : lidx_main_v19 (ix3 b n f) k = ix3 b n k :=
    funext fun a => by match a with | ⟨0, _⟩ => rfl | ⟨1, _⟩ => rfl | ⟨2, _⟩ => rfl
  have er : ridx_main_v19 (ix3 b n f) k = ix3 b k f :=
    funext fun a => by match a with | ⟨0, _⟩ => rfl | ⟨1, _⟩ => rfl | ⟨2, _⟩ => rfl
  rw [el, er, scaled1]

/-! ## Step 2: the stages from the row lengths to the propagated features -/

/-- The clamped length of row n. -/
theorem norm2 (x0 : (⟨S8x2048x128, .f32⟩ : BufTy).Contents (Elt Ideal)) (b : Fin 8) (n : Fin 2048) (z : Fin 1) :
    val_main_v22 (F := Ideal) x0 (ix3 b n z)
      = GraphStep.rowNorm GraphConsts.eps (fun n f => val_main_v19 (F := Ideal) x0 (ix3 b n f)) n := by
  rw [val_main_v22_apply, val_main_v20_apply, val_main_call2_v2_apply, val_main_call2_v1_apply, val_main_v21_apply, val_main_cst_4_apply, val_main_call2_cst_apply]
  simp only [Ideal.maximumf_def, Ideal.hostUnary_sqrt_def, Ideal.ofBits_def, GraphConsts.zero_eq, zero_add,
    val_main_call2_v0_apply, Ideal.mulf_def]
  unfold GraphStep.rowNorm GraphConsts.eps
  refine congrArg (fun s => max (Ideal.sqrt s) _) (Finset.sum_congr rfl fun k _ => ?_)
  have e : idx_main_call2_v1 (idx_main_call2_v2 (ix3 b n z)) k = ix3 b n k :=
    funext fun a => by match a with | ⟨0, _⟩ => rfl | ⟨1, _⟩ => rfl | ⟨2, _⟩ => rfl
  rw [e]

/-- The unit rows. -/
theorem unit2 (x0 : (⟨S8x2048x128, .f32⟩ : BufTy).Contents (Elt Ideal)) (b : Fin 8) (n : Fin 2048) (f : Fin 128) :
    val_main_v24 (F := Ideal) x0 (ix3 b n f) = GraphStep.unitDiv GraphConsts.eps (fun n f => val_main_v19 (F := Ideal) x0 (ix3 b n f)) n f := by
  have e : idx_main_v23 (ix3 b n f) = ix3 b n (0 : Fin 1) :=
    funext fun a => by match a with | ⟨0, _⟩ => rfl | ⟨1, _⟩ => rfl | ⟨2, _⟩ => rfl
  rw [val_main_v24_apply, val_main_v23_apply, e, norm2, Ideal.hostDivf_def]
  rfl

/-- The Gram matrix of the unit rows. -/
theorem gram2 (x0 : (⟨S8x2048x128, .f32⟩ : BufTy).Contents (Elt Ideal)) (b : Fin 8) (n m : Fin 2048) :
    val_main_v25 (F := Ideal) x0 (ix3 b n m) = GraphStep.gram (GraphStep.unitDiv GraphConsts.eps (fun n f => val_main_v19 (F := Ideal) x0 (ix3 b n f))) n m := by
  rw [val_main_v25_apply]
  unfold GraphStep.gram
  refine Finset.sum_congr rfl fun k _ => ?_
  have el : lidx_main_v25 (ix3 b n m) k = ix3 b n k :=
    funext fun a => by match a with | ⟨0, _⟩ => rfl | ⟨1, _⟩ => rfl | ⟨2, _⟩ => rfl
  have er : ridx_main_v25 (ix3 b n m) k = ix3 b m k :=
    funext fun a => by match a with | ⟨0, _⟩ => rfl | ⟨1, _⟩ => rfl | ⟨2, _⟩ => rfl
  rw [el, er, unit2, unit2]

/-- The kept entries. -/
theorem kept2 (x0 : (⟨S8x2048x128, .f32⟩ : BufTy).Contents (Elt Ideal)) (b : Fin 8) (n m : Fin 2048) :
    val_main_v28 (F := Ideal) x0 (ix3 b n m) = GraphStep.adjacency GraphConsts.thr₂ (GraphStep.unitDiv GraphConsts.eps (fun n f => val_main_v19 (F := Ideal) x0 (ix3 b n f))) n m := by
  rw [val_main_v28_apply, val_main_v27_apply, val_main_v26_apply, val_main_cst_5_apply, val_main_call3_v1_apply, val_main_call3_v0_apply, val_main_cst_6_apply,
    gram2]
  exact select_above _ _

/-- The degrees. -/
theorem degree2 (x0 : (⟨S8x2048x128, .f32⟩ : BufTy).Contents (Elt Ideal)) (b : Fin 8) (n : Fin 2048) :
    val_main_v29 (F := Ideal) x0 (ix2 b n) = GraphStep.degree (GraphStep.adjacency GraphConsts.thr₂ (GraphStep.unitDiv GraphConsts.eps (fun n f => val_main_v19 (F := Ideal) x0 (ix3 b n f)))) n := by
  rw [val_main_v29_apply, val_main_cst_7_apply, Ideal.ofBits_def, GraphConsts.zero_eq, zero_add]
  unfold GraphStep.degree
  refine Finset.sum_congr rfl fun k _ => ?_
  have e : idx_main_v29 (ix2 b n) k = ix3 b n k :=
    funext fun a => by match a with | ⟨0, _⟩ => rfl | ⟨1, _⟩ => rfl | ⟨2, _⟩ => rfl
  rw [e, kept2]

/-- The inverse square roots of the degrees. -/
theorem invs2 (x0 : (⟨S8x2048x128, .f32⟩ : BufTy).Contents (Elt Ideal)) (b : Fin 8) (n : Fin 2048) :
    val_main_v32 (F := Ideal) x0 (ix2 b n) = GraphStep.invSqrt (GraphStep.degree (GraphStep.adjacency GraphConsts.thr₂ (GraphStep.unitDiv GraphConsts.eps (fun n f => val_main_v19 (F := Ideal) x0 (ix3 b n f)))) n) := by
  rw [val_main_v32_apply, val_main_v31_apply, val_main_cst_8_apply, val_main_v30_apply, degree2, Ideal.hostDivf_def,
    Ideal.hostUnary_sqrt_def, Ideal.ofBits_def, GraphConsts.one_eq]
  rfl

/-- The kept entries with both factors. -/
theorem scaled2 (x0 : (⟨S8x2048x128, .f32⟩ : BufTy).Contents (Elt Ideal)) (b : Fin 8) (n m : Fin 2048) :
    val_main_v38 (F := Ideal) x0 (ix3 b n m)
      = ((GraphStep.adjacency GraphConsts.thr₂ (GraphStep.unitDiv GraphConsts.eps (fun n f => val_main_v19 (F := Ideal) x0 (ix3 b n f)))) n m * GraphStep.invSqrt (GraphStep.degree (GraphStep.adjacency GraphConsts.thr₂ (GraphStep.unitDiv GraphConsts.eps (fun n f => val_main_v19 (F := Ideal) x0 (ix3 b n f)))) n)) * GraphStep.invSqrt (GraphStep.degree (GraphStep.adjacency GraphConsts.thr₂ (GraphStep.unitDiv GraphConsts.eps (fun n f => val_main_v19 (F := Ideal) x0 (ix3 b n f)))) m) := by
  have e1 : idx_main_v33 (idx_main_v34 (ix3 b n m)) = ix2 b n :=
    funext fun a => by match a with | ⟨0, _⟩ => rfl | ⟨1, _⟩ => rfl
  have e2 : idx_main_v36 (idx_main_v37 (ix3 b n m)) = ix2 b m :=
    funext fun a => by match a with | ⟨0, _⟩ => rfl | ⟨1, _⟩ => rfl
  rw [val_main_v38_apply, val_main_v35_apply, val_main_v34_apply, val_main_v33_apply, val_main_v37_apply, val_main_v36_apply, e1, e2,
    kept2, invs2, invs2, Ideal.mulf_def, Ideal.mulf_def]

/-- The propagated features. -/
theorem step2 (x0 : (⟨S8x2048x128, .f32⟩ : BufTy).Contents (Elt Ideal)) (b : Fin 8) (n : Fin 2048) (f : Fin 128) :
    val_main_v39 (F := Ideal) x0 (ix3 b n f) = GraphStep.stepR GraphConsts.eps GraphConsts.thr₂ (fun n f => val_main_v19 (F := Ideal) x0 (ix3 b n f)) n f := by
  rw [val_main_v39_apply]
  unfold GraphStep.stepR GraphStep.propInner
  refine Finset.sum_congr rfl fun k _ => ?_
  have el : lidx_main_v39 (ix3 b n f) k = ix3 b n k :=
    funext fun a => by match a with | ⟨0, _⟩ => rfl | ⟨1, _⟩ => rfl | ⟨2, _⟩ => rfl
  have er : ridx_main_v39 (ix3 b n f) k = ix3 b k f :=
    funext fun a => by match a with | ⟨0, _⟩ => rfl | ⟨1, _⟩ => rfl | ⟨2, _⟩ => rfl
  rw [el, er, scaled2]

/-! ## Step 3: the stages from the row lengths to the propagated features -/

/-- The clamped length of row n. -/
theorem norm3 (x0 : (⟨S8x2048x128, .f32⟩ : BufTy).Contents (Elt Ideal)) (b : Fin 8) (n : Fin 2048) (z : Fin 1) :
    val_main_v42 (F := Ideal) x0 (ix3 b n z)
      = GraphStep.rowNorm GraphConsts.eps (fun n f => val_main_v39 (F := Ideal) x0 (ix3 b n f)) n := by
  rw [val_main_v42_apply, val_main_v40_apply, val_main_call4_v2_apply, val_main_call4_v1_apply, val_main_v41_apply, val_main_cst_9_apply, val_main_call4_cst_apply]
  simp only [Ideal.maximumf_def, Ideal.hostUnary_sqrt_def, Ideal.ofBits_def, GraphConsts.zero_eq, zero_add,
    val_main_call4_v0_apply, Ideal.mulf_def]
  unfold GraphStep.rowNorm GraphConsts.eps
  refine congrArg (fun s => max (Ideal.sqrt s) _) (Finset.sum_congr rfl fun k _ => ?_)
  have e : idx_main_call4_v1 (idx_main_call4_v2 (ix3 b n z)) k = ix3 b n k :=
    funext fun a => by match a with | ⟨0, _⟩ => rfl | ⟨1, _⟩ => rfl | ⟨2, _⟩ => rfl
  rw [e]

/-- The unit rows. -/
theorem unit3 (x0 : (⟨S8x2048x128, .f32⟩ : BufTy).Contents (Elt Ideal)) (b : Fin 8) (n : Fin 2048) (f : Fin 128) :
    val_main_v44 (F := Ideal) x0 (ix3 b n f) = GraphStep.unitDiv GraphConsts.eps (fun n f => val_main_v39 (F := Ideal) x0 (ix3 b n f)) n f := by
  have e : idx_main_v43 (ix3 b n f) = ix3 b n (0 : Fin 1) :=
    funext fun a => by match a with | ⟨0, _⟩ => rfl | ⟨1, _⟩ => rfl | ⟨2, _⟩ => rfl
  rw [val_main_v44_apply, val_main_v43_apply, e, norm3, Ideal.hostDivf_def]
  rfl

/-- The Gram matrix of the unit rows. -/
theorem gram3 (x0 : (⟨S8x2048x128, .f32⟩ : BufTy).Contents (Elt Ideal)) (b : Fin 8) (n m : Fin 2048) :
    val_main_v45 (F := Ideal) x0 (ix3 b n m) = GraphStep.gram (GraphStep.unitDiv GraphConsts.eps (fun n f => val_main_v39 (F := Ideal) x0 (ix3 b n f))) n m := by
  rw [val_main_v45_apply]
  unfold GraphStep.gram
  refine Finset.sum_congr rfl fun k _ => ?_
  have el : lidx_main_v45 (ix3 b n m) k = ix3 b n k :=
    funext fun a => by match a with | ⟨0, _⟩ => rfl | ⟨1, _⟩ => rfl | ⟨2, _⟩ => rfl
  have er : ridx_main_v45 (ix3 b n m) k = ix3 b m k :=
    funext fun a => by match a with | ⟨0, _⟩ => rfl | ⟨1, _⟩ => rfl | ⟨2, _⟩ => rfl
  rw [el, er, unit3, unit3]

/-- The kept entries. -/
theorem kept3 (x0 : (⟨S8x2048x128, .f32⟩ : BufTy).Contents (Elt Ideal)) (b : Fin 8) (n m : Fin 2048) :
    val_main_v48 (F := Ideal) x0 (ix3 b n m) = GraphStep.adjacency GraphConsts.thr₃ (GraphStep.unitDiv GraphConsts.eps (fun n f => val_main_v39 (F := Ideal) x0 (ix3 b n f))) n m := by
  rw [val_main_v48_apply, val_main_v47_apply, val_main_v46_apply, val_main_cst_10_apply, val_main_call5_v1_apply, val_main_call5_v0_apply, val_main_cst_11_apply,
    gram3]
  exact select_above _ _

/-- The degrees. -/
theorem degree3 (x0 : (⟨S8x2048x128, .f32⟩ : BufTy).Contents (Elt Ideal)) (b : Fin 8) (n : Fin 2048) :
    val_main_v49 (F := Ideal) x0 (ix2 b n) = GraphStep.degree (GraphStep.adjacency GraphConsts.thr₃ (GraphStep.unitDiv GraphConsts.eps (fun n f => val_main_v39 (F := Ideal) x0 (ix3 b n f)))) n := by
  rw [val_main_v49_apply, val_main_cst_12_apply, Ideal.ofBits_def, GraphConsts.zero_eq, zero_add]
  unfold GraphStep.degree
  refine Finset.sum_congr rfl fun k _ => ?_
  have e : idx_main_v49 (ix2 b n) k = ix3 b n k :=
    funext fun a => by match a with | ⟨0, _⟩ => rfl | ⟨1, _⟩ => rfl | ⟨2, _⟩ => rfl
  rw [e, kept3]

/-- The inverse square roots of the degrees. -/
theorem invs3 (x0 : (⟨S8x2048x128, .f32⟩ : BufTy).Contents (Elt Ideal)) (b : Fin 8) (n : Fin 2048) :
    val_main_v52 (F := Ideal) x0 (ix2 b n) = GraphStep.invSqrt (GraphStep.degree (GraphStep.adjacency GraphConsts.thr₃ (GraphStep.unitDiv GraphConsts.eps (fun n f => val_main_v39 (F := Ideal) x0 (ix3 b n f)))) n) := by
  rw [val_main_v52_apply, val_main_v51_apply, val_main_cst_13_apply, val_main_v50_apply, degree3, Ideal.hostDivf_def,
    Ideal.hostUnary_sqrt_def, Ideal.ofBits_def, GraphConsts.one_eq]
  rfl

/-- The kept entries with both factors. -/
theorem scaled3 (x0 : (⟨S8x2048x128, .f32⟩ : BufTy).Contents (Elt Ideal)) (b : Fin 8) (n m : Fin 2048) :
    val_main_v58 (F := Ideal) x0 (ix3 b n m)
      = ((GraphStep.adjacency GraphConsts.thr₃ (GraphStep.unitDiv GraphConsts.eps (fun n f => val_main_v39 (F := Ideal) x0 (ix3 b n f)))) n m * GraphStep.invSqrt (GraphStep.degree (GraphStep.adjacency GraphConsts.thr₃ (GraphStep.unitDiv GraphConsts.eps (fun n f => val_main_v39 (F := Ideal) x0 (ix3 b n f)))) n)) * GraphStep.invSqrt (GraphStep.degree (GraphStep.adjacency GraphConsts.thr₃ (GraphStep.unitDiv GraphConsts.eps (fun n f => val_main_v39 (F := Ideal) x0 (ix3 b n f)))) m) := by
  have e1 : idx_main_v53 (idx_main_v54 (ix3 b n m)) = ix2 b n :=
    funext fun a => by match a with | ⟨0, _⟩ => rfl | ⟨1, _⟩ => rfl
  have e2 : idx_main_v56 (idx_main_v57 (ix3 b n m)) = ix2 b m :=
    funext fun a => by match a with | ⟨0, _⟩ => rfl | ⟨1, _⟩ => rfl
  rw [val_main_v58_apply, val_main_v55_apply, val_main_v54_apply, val_main_v53_apply, val_main_v57_apply, val_main_v56_apply, e1, e2,
    kept3, invs3, invs3, Ideal.mulf_def, Ideal.mulf_def]

/-- The propagated features. -/
theorem step3 (x0 : (⟨S8x2048x128, .f32⟩ : BufTy).Contents (Elt Ideal)) (b : Fin 8) (n : Fin 2048) (f : Fin 128) :
    val_main_v59 (F := Ideal) x0 (ix3 b n f) = GraphStep.stepR GraphConsts.eps GraphConsts.thr₃ (fun n f => val_main_v39 (F := Ideal) x0 (ix3 b n f)) n f := by
  rw [val_main_v59_apply]
  unfold GraphStep.stepR GraphStep.propInner
  refine Finset.sum_congr rfl fun k _ => ?_
  have el : lidx_main_v59 (ix3 b n f) k = ix3 b n k :=
    funext fun a => by match a with | ⟨0, _⟩ => rfl | ⟨1, _⟩ => rfl | ⟨2, _⟩ => rfl
  have er : ridx_main_v59 (ix3 b n f) k = ix3 b k f :=
    funext fun a => by match a with | ⟨0, _⟩ => rfl | ⟨1, _⟩ => rfl | ⟨2, _⟩ => rfl
  rw [el, er, scaled3]

/-! ## The three steps composed, and the product with the weights -/

/-- The third step's features as three steps from the input rows. -/
theorem steps (x0 : (⟨S8x2048x128, .f32⟩ : BufTy).Contents (Elt Ideal)) (b : Fin 8) (n : Fin 2048) (f : Fin 128) :
    val_main_v59 (F := Ideal) x0 (ix3 b n f)
      = GraphStep.stepR GraphConsts.eps GraphConsts.thr₃ (GraphStep.stepR GraphConsts.eps GraphConsts.thr₂
          (GraphStep.stepR GraphConsts.eps GraphConsts.thr₁ (fun n f => x0 (ix3 b n f)))) n f := by
  have h1 : (fun n f => val_main_v19 (F := Ideal) x0 (ix3 b n f))
      = GraphStep.stepR GraphConsts.eps GraphConsts.thr₁ (fun n f => x0 (ix3 b n f)) :=
    funext fun n => funext fun f => step1 x0 b n f
  have h2 : (fun n f => val_main_v39 (F := Ideal) x0 (ix3 b n f))
      = GraphStep.stepR GraphConsts.eps GraphConsts.thr₂ (GraphStep.stepR GraphConsts.eps GraphConsts.thr₁ (fun n f => x0 (ix3 b n f))) := by
    rw [← h1]
    exact funext fun n => funext fun f => step2 x0 b n f
  rw [step3, h2]

/-- The reference's result at (b, n, o) is `GraphStep.outR` of the rows of batch entry b and of the weights, at (n, o). -/
theorem ref_value (x0 : (⟨S8x2048x128, .f32⟩ : BufTy).Contents (Elt Ideal)) (x1 : (⟨S128x128, .f32⟩ : BufTy).Contents (Elt Ideal))
    (b : Fin 8) (n : Fin 2048) (o : Fin 128) :
    Cert.ReferenceIdeal.ReadP.val_main_v61 (F := Ideal) x0 x1 (ix3 b n o)
      = GraphStep.outR GraphConsts.eps GraphConsts.thr₁ GraphConsts.thr₂ GraphConsts.thr₃
          (fun n f => x0 (ix3 b n f)) (fun f o => x1 (ix2 f o)) n o := by
  rw [val_main_v61_apply]
  unfold GraphStep.outR
  refine Finset.sum_congr rfl fun k _ => ?_
  have el : lidx_main_v61 (ix3 b n o) k = ix3 b n k :=
    funext fun a => by match a with | ⟨0, _⟩ => rfl | ⟨1, _⟩ => rfl | ⟨2, _⟩ => rfl
  have er : ridx_main_v61 (ix3 b n o) k = ix2 k o :=
    funext fun a => by match a with | ⟨0, _⟩ => rfl | ⟨1, _⟩ => rfl
  rw [el, er, val_main_v60_apply, Ideal.addf_def, steps]

end Cert.ReferenceIdeal.RefValue

end
-- ==== Proof.KModel.lean ====
/-
  The kernel body's arithmetic as named functions of whole vectors, for any float family.

  One propagation step keeps four buffers: the features `h` (2048 × 128), their unit rows `xn`, a degree column
  `d` (2048 × 1) and an accumulator `a` (2048 × 128). The degree and the accumulator are each built in eight
  trips; trip `k` reads rows `256 k … 256 k + 255` of the stored unit rows (and, for the accumulator, of the
  features and of the reciprocal square roots of the degrees). `degPay` and `accPay` are what one trip adds, with the
  threshold's bit pattern as a parameter, so that the three steps of the kernel are one function at three
  thresholds; `degRec`, `accRec` are the eight trips; `stepV` is one step and `kernelValue` the whole body:
  three steps, the input added back, and the product with the weights.
-/
import proofs.«122685_j35759897706671_1_alg».proof.Proof.Gen.KernelIdeal.Skeleton
import Idealize.ShloMosaic.Lib.Pipeline.Value

noncomputable section

namespace Cert.KernelIdeal.KRun

open Cert.KernelIdeal Cert.KernelIdeal.Gen
open Idealize.ShloMosaic Idealize.SL.Sem

variable {F : FTy → Type} [FloatOps F]

/-- Trip `k`'s rows `256 k … 256 k + 255` of a 2048-row matrix with 128 columns. -/
theorem rows_inb (k : ℕ) (hk : k < 8) : ∀ a, (![256 * k, 0] : Fin 2 → ℕ) a + S256x128.size a ≤ S2048x128.size a := by
  intro a; fin_cases a <;> simp <;> omega

/-- The same rows of a 2048-row column. -/
theorem rows1_inb (k : ℕ) (hk : k < 8) : ∀ a, (![256 * k, 0] : Fin 2 → ℕ) a + S256x1.size a ≤ S2048x1.size a := by
  intro a; fin_cases a <;> simp <;> omega

def rowsBlk {α : Type} (X : S2048x128.Idx → α) (k : ℕ) (hk : k < 8) : S256x128.Idx → α :=
  fun x => X ((Rect.unit (s := S2048x128) ![256 * k, 0] S256x128.size (rows_inb k hk)).idx x)

def rowsBlk1 {α : Type} (X : S2048x1.Idx → α) (k : ℕ) (hk : k < 8) : S256x1.Idx → α :=
  fun x => X ((Rect.unit (s := S2048x1) ![256 * k, 0] S256x1.size (rows1_inb k hk)).idx x)

/-- What one trip adds to the degree column: the products of all unit rows with the trip's 256 unit rows, kept where
    above the threshold (else zero), summed along each row, added to the column as found. -/
def degPay (t : BitVec 32) (xn : FVec F S2048x128 .bf16) (blk : Vec F S256x128 .bf16) (d : Vec F S2048x1 .f32) : FVec F S2048x1 .f32 :=
  have cst_110 : FVec F S2048x256 .f32 := constant S2048x256 .f32 0x00000000#32
  have v139 : FVec F S2048x256 .f32 := matmul dot_S2048x128_S256x128_S2048x256_1_1_0_0_n_n none xn blk cst_110
  have cst_111 : F .f32 := Scalar.ofBits .f32 t
  have v140 : FVec F S2048x256 .f32 := broadcast S2048x256 cst_111
  have v141 : IVec S2048x256 1 := cmpf .ogt v139 v140
  have cst_112 : F .f32 := Scalar.ofBits .f32 0x00000000#32
  have v142 : FVec F S2048x256 .f32 := broadcast S2048x256 cst_112
  have v143 : FVec F S2048x256 .f32 := select v141 v139 v142
  have v145 : FVec F S2048 .f32 := multiReduction .add [1] S2048 v143 0x00000000#32 reduces_S2048x256_S2048 (.inl rfl) rfl
  have v146 : FVec F S2048x1 .f32 := shapeCast S2048x1 v145 shapeCasts_S2048_S2048x1
  have v147 : FVec F S2048x1 .f32 := addf d v146
  have v150 : FVec F S2048x1 .f32 := shapeCast S2048x1 v147 shapeCasts_S2048x1_S2048x1
  v150

/-- What one trip adds to the accumulator: the same kept products, times the trip's 256 feature rows each scaled by
    its own reciprocal square root of the degree, added to the accumulator as found. -/
def accPay (t : BitVec 32) (xn : FVec F S2048x128 .bf16) (blk5 : Vec F S256x128 .bf16) (blk4 : Vec F S256x128 .f32)
    (blk7 : Vec F S256x1 .f32) (a : Vec F S2048x128 .f32) : FVec F S2048x128 .f32 :=
  have cst_110 : FVec F S2048x256 .f32 := constant S2048x256 .f32 0x00000000#32
  have v139 : FVec F S2048x256 .f32 := matmul dot_S2048x128_S256x128_S2048x256_1_1_0_0_n_n none xn blk5 cst_110
  have cst_111 : F .f32 := Scalar.ofBits .f32 t
  have v140 : FVec F S2048x256 .f32 := broadcast S2048x256 cst_111
  have v141 : IVec S2048x256 1 := cmpf .ogt v139 v140
  have cst_112 : F .f32 := Scalar.ofBits .f32 0x00000000#32
  have v142 : FVec F S2048x256 .f32 := broadcast S2048x256 cst_112
  have v143 : FVec F S2048x256 .f32 := select v141 v139 v142
  have v148 : FVec F S256x128 .f32 := broadcastTo S256x128 blk7 broadcasts_S256x1_S256x128
  have v149 : FVec F S256x128 .f32 := mulf blk4 v148
  have v150 : FVec F S256x128 .bf16 := truncf .bf16 v149 bitsLt_bf16_f32
  have v151 : FVec F S2048x256 .bf16 := truncf .bf16 v143 bitsLt_bf16_f32
  have cst_115 : FVec F S2048x128 .f32 := constant S2048x128 .f32 0x00000000#32
  have v152 : FVec F S2048x128 .f32 := matmul dot_S2048x256_S256x128_S2048x128_1_0_0_1_n_n none v151 v150 cst_115
  have v154 : FVec F S2048x128 .f32 := addf a v152
  have v157 : FVec F S2048x128 .f32 := shapeCast S2048x128 v154 shapeCasts_S2048x128_S2048x128
  v157

/-- The degree column after `k` trips, from `d0`. -/
def degRec (t : BitVec 32) (xn : FVec F S2048x128 .bf16) (S5 : Vec F S2048x128 .bf16) (d0 : Vec F S2048x1 .f32) : ℕ → Vec F S2048x1 .f32
  | 0 => d0
  | k + 1 => if hk : k < 8 then degPay t xn (rowsBlk S5 k hk) (degRec t xn S5 d0 k) else degRec t xn S5 d0 k

/-- The accumulator after `k` trips, from `a0`. -/
def accRec (t : BitVec 32) (xn : FVec F S2048x128 .bf16) (S5 : Vec F S2048x128 .bf16) (H4 : Vec F S2048x128 .f32)
    (S7 : Vec F S2048x1 .f32) (a0 : Vec F S2048x128 .f32) : ℕ → Vec F S2048x128 .f32
  | 0 => a0
  | k + 1 => if hk : k < 8 then accPay t xn (rowsBlk S5 k hk) (rowsBlk H4 k hk) (rowsBlk1 S7 k hk) (accRec t xn S5 H4 S7 a0 k)
             else accRec t xn S5 H4 S7 a0 k

/-- One propagation step on the whole feature matrix. -/
def stepV (t : BitVec 32) (h : Vec F S2048x128 .f32) : Vec F S2048x128 .f32 :=
  k0_pay12 (k0_pay9 (k0_pay8 (degRec t (k0_pay4 h) (k0_pay5 h) k0_pay6 8)))
    (accRec t (k0_pay4 h) (k0_pay5 h) h (k0_pay9 (k0_pay8 (degRec t (k0_pay4 h) (k0_pay5 h) k0_pay6 8))) k0_pay10 8)

/-- The three thresholds' bit patterns. -/
abbrev bits₁ : BitVec 32 := 0x3D4CCCCD#32
abbrev bits₂ : BitVec 32 := 0x3DCCCCCD#32
abbrev bits₃ : BitVec 32 := 0x3E19999A#32

/-- The whole body: the block written back, from the two input blocks. -/
def kernelValue (x0 : Vec F S1x2048x128 .f32) (x1 : Vec F S128x128 .f32) : Vec F S1x2048x128 .f32 :=
  k0_pay2 (stepV bits₃ (stepV bits₂ (stepV bits₁ (k0_pay3 x0)))) x0 x1

/-! The printed payloads of the three steps are these functions. -/

theorem pay7_eq (h : Vec F S2048x128 .f32) (b : Vec F S256x128 .bf16) (d : Vec F S2048x1 .f32) :
    k0_pay7 h b d = degPay bits₁ (k0_pay4 h) b d := rfl
theorem pay16_eq (xn : FVec F S2048x128 .bf16) (b : Vec F S256x128 .bf16) (d : Vec F S2048x1 .f32) :
    k0_pay16 xn b d = degPay bits₂ xn b d := rfl
theorem pay25_eq (h : Vec F S2048x128 .f32) (v89 : FVec F S2048x1 .f32) (c : F .f32) (b : Vec F S256x128 .bf16) (d : Vec F S2048x1 .f32) :
    k0_pay25 h v89 c b d = degPay bits₃ (k0_pay22 h v89 c) b d := rfl
theorem pay11_eq (xn : FVec F S2048x128 .bf16) (b5 : Vec F S256x128 .bf16) (b4 : Vec F S256x128 .f32) (b7 : Vec F S256x1 .f32) (a : Vec F S2048x128 .f32) :
    k0_pay11 xn b5 b4 b7 a = accPay bits₁ xn b5 b4 b7 a := rfl
theorem pay19_eq (xn : FVec F S2048x128 .bf16) (b5 : Vec F S256x128 .bf16) (b4 : Vec F S256x128 .f32) (b7 : Vec F S256x1 .f32) (a : Vec F S2048x128 .f32) :
    k0_pay19 xn b5 b4 b7 a = accPay bits₂ xn b5 b4 b7 a := rfl
theorem pay28_eq (h : Vec F S2048x128 .f32) (v89 : FVec F S2048x1 .f32) (c : F .f32) (b5 : Vec F S256x128 .bf16) (b4 : Vec F S256x128 .f32) (b7 : Vec F S256x1 .f32) (a : Vec F S2048x128 .f32) :
    k0_pay28 h v89 c b5 b4 b7 a = accPay bits₃ (k0_pay22 h v89 c) b5 b4 b7 a := rfl

theorem pay13_eq (h : Vec F S2048x128 .f32) : k0_pay13 h = k0_pay4 h := rfl
theorem pay14_eq (h : Vec F S2048x128 .f32) : k0_pay14 h = k0_pay5 h := rfl
theorem pay15_eq : k0_pay15 (F := F) = k0_pay6 := rfl
theorem pay17_eq (d : Vec F S2048x1 .f32) : k0_pay17 d = k0_pay9 (k0_pay8 d) := rfl
theorem pay18_eq : k0_pay18 (F := F) = k0_pay10 := rfl
theorem pay20_eq (s : Vec F S2048x1 .f32) (a : Vec F S2048x128 .f32) : k0_pay20 s a = k0_pay12 s a := rfl
theorem pay22_eq (h : Vec F S2048x128 .f32) : k0_pay22 h (k0_pay21 h) (FloatOps.ofBits .f32 1065353216#32) = k0_pay4 h := rfl
theorem pay23_eq (h : Vec F S2048x128 .f32) : k0_pay23 h (k0_pay21 h) (FloatOps.ofBits .f32 1065353216#32) = k0_pay5 h := rfl
theorem pay24_eq : k0_pay24 (F := F) = k0_pay6 := rfl
theorem pay26_eq (d : Vec F S2048x1 .f32) : k0_pay26 d = k0_pay9 (k0_pay8 d) := rfl
theorem pay27_eq : k0_pay27 (F := F) = k0_pay10 := rfl
theorem pay29_eq (s : Vec F S2048x1 .f32) (a : Vec F S2048x128 .f32) : k0_pay1 (k0_pay29 s a) = k0_pay12 s a := rfl

end Cert.KernelIdeal.KRun

end
-- ==== Proof.KView.lean ====
/-
  Reading a scratch buffer back. A buffer whose newest store filled it whole holds that store's value, whatever
  was stored before; a load through the whole buffer reads its contents; and a load of trip `k`'s 256 rows, whose
  first row the program spells as a chain of word arithmetic equal to `256 k`, reads those rows of the contents.
-/
import proofs.«122685_j35759897706671_1_alg».proof.Proof.KModel

set_option maxRecDepth 16384

noncomputable section

namespace Cert.KernelIdeal.KRun

open Cert.KernelIdeal Cert.KernelIdeal.Gen
open Idealize.ShloMosaic Idealize.SL.Sem

variable {F : FTy → Type} [FloatOps F]

theorem zero2 : (![0, 0] : Fin 2 → ℕ) = fun _ => 0 := by funext a; fin_cases a <;> rfl
theorem zero3 : (![0, 0, 0] : Fin 3 → ℕ) = fun _ => 0 := by funext a; fin_cases a <;> rfl

/-- Reading back a buffer whose newest store filled it whole gives that store's value. -/
theorem read_top_whole {sig : RefSig} {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self .., View.mem_set_unit_zero h inb y⟩),
    View.canon_cons_unit_zero h inb]

/-- A load through the whole buffer reads its contents. -/
theorem readAt_whole {sig : RefSig} {κ : Kind} {sp : Space} {S : Shape} {e : EltTy} (v : View sig κ sp S e)
    {off : Fin S.rank → ℕ} (h : off = fun _ => 0) (inb : ∀ a, off a + S.size a ≤ S.size a) (f : v.ty.Contents (Elt F)) :
    View.readAt (Elt F) v (Rect.unit off S.size inb).toLoadRect f = v.read (Elt F) f := by
  rw [View.readAt_eq_ld, View.ld_unit_zero h]

/-- A load through the whole buffer after a list of stores reads what the stores leave. -/
theorem readCov_whole {sig : RefSig} {κ : Kind} {sp : Space} {S : Shape} {e : EltTy} (v : View sig κ sp S e)
    {off : Fin S.rank → ℕ} (h : off = fun _ => 0) (inb : ∀ a, off a + S.size a ≤ S.size a) (L : List (View.Piece (Elt F) S e)) :
    v.readCov L (Rect.unit off S.size inb).toLoadRect = View.canon L := by
  rw [View.readCov_eq_canon']
  exact View.ld_unit_zero h inb (View.canon L)

/-- A load of rows whose offsets are spelt two ways reads the same thing. -/
theorem ld_unit_congr {S : Shape} {α : Type} (X : S.Idx → α) {off off' : Fin S.rank → ℕ} (h : off = off') (size : Fin S.rank → ℕ)
    (p : ∀ a, off a + size a ≤ S.size a) (p' : ∀ a, off' a + size a ≤ S.size a) (x : (Rect.unit (s := S) off size p).shape.Idx) :
    X ((Rect.unit (s := S) off size p).idx x) = X ((Rect.unit (s := S) off' size p').idx (h ▸ x)) := by
  subst h; rfl

/-- The same, as functions on the block. -/
theorem ld_off_congr {S : Shape} {α : Type} (X : S.Idx → α) {off off' : Fin S.rank → ℕ} (h : off = off') (size : Fin S.rank → ℕ)
    (p : ∀ a, off a + size a ≤ S.size a) (p' : ∀ a, off' a + size a ≤ S.size a) :
    (fun x => X ((Rect.unit (s := S) off size p).idx x)) = (fun x => X ((Rect.unit (s := S) off' size p').idx x)) := by
  subst h; rfl

end Cert.KernelIdeal.KRun

end
-- ==== Proof.KLoop1.lean ====
/-
  The degree loop of one propagation step, read as the eight-trip recursion: after `k` trips the degree column holds
  `degRec` at `k`, whatever it held at entry. One trip stores one value into the whole column: what it found there plus
  the trip's contribution (`degPay`), computed from the trip's 256 rows of the stored unit rows.
-/
import proofs.«122685_j35759897706671_1_alg».proof.Proof.KView
import proofs.«122685_j35759897706671_1_alg».proof.Proof.Gen.KernelIdeal.Loops

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

theorem trips1 : k0_t1_loop.trips = 8 := by decide

theorem lt8_1 (k : Fin k0_t1_loop.trips) : k.val < 8 := Nat.lt_of_lt_of_le k.isLt k0_t1_abs.2.1

/-- The one piece a trip stores. -/
theorem trip1 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v5 : Vec F S2048x128 .f32) (X5 : BufTy.Contents (Elt F) arg5.view.ty)
    (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 v5 X5 k f
      = [⟨Rect.unit ![0, 0] S2048x1.size inb_S2048x1_S2048x1_0_0,
          degPay bits₁ (k0_pay4 v5) (rowsBlk (arg5.view.read (Elt F) X5) k.val (lt8_1 k)) (arg7.view.read (Elt F) f)⟩] := by
  unfold tripL_k0_t1 trip_k0_t1
  dsimp only
  rw [pay7_eq, View.readAt_eq_ld, View.readAt_eq_ld, View.ld_unit_zero zero2]
  unfold View.ld rowsBlk
  rw [ld_off_congr _ (k0_off1_eq k) _ _ (rows_inb k.val (lt8_1 k))]
  rfl

/-- The column after `k` trips. -/
theorem loop1 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v5 : Vec F S2048x128 .f32) (X5 : BufTy.Contents (Elt F) arg5.view.ty)
    (G7 : BufTy.Contents (Elt F) arg7.view.ty) :
    ∀ k : ℕ, k ≤ k0_t1_loop.trips →
    arg7.view.read (Elt F) (arg7.view.writes (Elt F) G7 (pb_k0_t1 (F := F) 𝒱 c bd i arg1 harg1 arg2 harg2 arg3 harg3 arg4 harg4 arg5 harg5 arg6 harg6 arg7 harg7 v5 X5 G7 k))
      = degRec bits₁ (k0_pay4 v5) (arg5.view.read (Elt F) X5) (arg7.view.read (Elt F) G7) k
  | 0, _ => by rw [pb_k0_t1.eq_1]; rfl
  | k + 1, hk => by
    have hk' : k < k0_t1_loop.trips := hk
    have ih := loop1 𝒱 bd c i arg1 harg1 arg2 harg2 arg3 harg3 arg4 harg4 arg5 harg5 arg6 harg6 arg7 harg7 v5 X5 G7 k (Nat.le_of_lt hk')
    have e := pb_k0_t1_succ (F := F) 𝒱 c bd i arg1 harg1 arg2 harg2 arg3 harg3 arg4 harg4 arg5 harg5 arg6 harg6 arg7 harg7 v5 X5 G7 ⟨k, hk'⟩
    rw [show (⟨k, hk'⟩ : Fin k0_t1_loop.trips).val + 1 = k + 1 from rfl] at e
    rw [e, View.writes_append, trip1, read_top_whole _ _ zero2, ih, degRec, dif_pos (lt8_1 ⟨k, hk'⟩)]

/-- What a load of the whole column reads after the loop, when the buffers it meets hold lists of stores. -/
theorem after1 (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v5 : Vec F S2048x128 .f32)
    (L5 : List (View.Piece (Elt F) S2048x128 .bf16)) (L7 : List (View.Piece (Elt F) S2048x1 .f32)) :
    View.readAt (Elt F) arg7.view (Rect.unit ![0, 0] S2048x1.size inb_S2048x1_S2048x1_0_0).toLoadRect
      (arg7.view.writes (Elt F) arg7.view.junk
        (pb_k0_t1 (F := F) Variants.none c none i arg1 harg1 arg2 harg2 arg3 harg3 arg4 harg4 arg5 harg5 arg6 harg6 arg7 harg7 v5
            (arg5.view.writes (Elt F) arg5.view.junk L5) (arg7.view.writes (Elt F) arg7.view.junk L7)
            (Scf.trips k0_t1_loop.lb k0_t1_loop.ub k0_t1_loop.st) ++ L7))
      = degRec bits₁ (k0_pay4 v5) (View.canon L5) (View.canon L7) 8 := by
  have ht : Scf.trips k0_t1_loop.lb k0_t1_loop.ub k0_t1_loop.st = 8 := trips1
  rw [readAt_whole _ zero2, View.writes_append, ht,
    loop1 Variants.none none c i arg1 harg1 arg2 harg2 arg3 harg3 arg4 harg4 arg5 harg5 arg6 harg6 arg7 harg7 v5 _ _ 8 (by rw [trips1]),
    View.read_writes_junk_eq_canon, View.read_writes_junk_eq_canon]

end Cert.KernelIdeal.KRun

end
-- ==== Proof.KLoop2.lean ====
/-
  The accumulator loop of one propagation step, read as the eight-trip recursion: after `k` trips the accumulator holds
  `accRec` at `k`, whatever it held at entry. One trip stores one value into the whole accumulator: what it found there
  plus the trip's contribution (`accPay`), computed from the trip's 256 rows of the stored unit rows, of the features
  and of the column of reciprocal square roots.
-/
import proofs.«122685_j35759897706671_1_alg».proof.Proof.KView
import proofs.«122685_j35759897706671_1_alg».proof.Proof.Gen.KernelIdeal.Loops

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

theorem trips2 : k0_t2_loop.trips = 8 := by decide

theorem lt8_2 (k : Fin k0_t2_loop.trips) : k.val < 8 := Nat.lt_of_lt_of_le k.isLt k0_t2_abs.2.1

/-- The one piece a trip stores. -/
theorem trip2 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v16 : FVec F S2048x128 .bf16) (v28 : FVec F S2048x1 .f32)
    (X4 : BufTy.Contents (Elt F) arg4.view.ty) (X5 : BufTy.Contents (Elt F) arg5.view.ty) (X7 : BufTy.Contents (Elt F) arg7.view.ty)
    (k : Fin k0_t2_loop.trips) (f : BufTy.Contents (Elt F) arg6.view.ty) :
    tripL_k0_t2 (F := F) 𝒱 c bd i arg1 harg1 arg2 harg2 arg3 harg3 arg4 harg4 arg5 harg5 arg6 harg6 arg7 harg7 v16 v28 X4 X5 X7 k f
      = [⟨Rect.unit ![0, 0] S2048x128.size inb_S2048x128_S2048x128_0_0,
          accPay bits₁ v16 (rowsBlk (arg5.view.read (Elt F) X5) k.val (lt8_2 k)) (rowsBlk (arg4.view.read (Elt F) X4) k.val (lt8_2 k))
            (rowsBlk1 (arg7.view.read (Elt F) X7) k.val (lt8_2 k)) (arg6.view.read (Elt F) f)⟩] := by
  unfold tripL_k0_t2 trip_k0_t2
  dsimp only
  rw [pay11_eq, View.readAt_eq_ld, View.readAt_eq_ld, View.readAt_eq_ld, View.readAt_eq_ld, View.ld_unit_zero zero2]
  unfold View.ld rowsBlk rowsBlk1
  rw [ld_off_congr (arg5.view.read (Elt F) X5) (k0_off2_eq k) _ _ (rows_inb k.val (lt8_2 k)),
    ld_off_congr (arg4.view.read (Elt F) X4) (k0_off2_eq k) _ _ (rows_inb k.val (lt8_2 k)),
    ld_off_congr (arg7.view.read (Elt F) X7) (k0_off3_eq k) _ _ (rows1_inb k.val (lt8_2 k))]
  rfl

/-- The accumulator after `k` trips. -/
theorem loop2 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v16 : FVec F S2048x128 .bf16) (v28 : FVec F S2048x1 .f32)
    (X4 : BufTy.Contents (Elt F) arg4.view.ty) (X5 : BufTy.Contents (Elt F) arg5.view.ty) (X7 : BufTy.Contents (Elt F) arg7.view.ty)
    (G6 : BufTy.Contents (Elt F) arg6.view.ty) :
    ∀ k : ℕ, k ≤ k0_t2_loop.trips →
    arg6.view.read (Elt F) (arg6.view.writes (Elt F) G6 (pb_k0_t2 (F := F) 𝒱 c bd i arg1 harg1 arg2 harg2 arg3 harg3 arg4 harg4 arg5 harg5 arg6 harg6 arg7 harg7 v16 v28 X4 X5 X7 G6 k))
      = accRec bits₁ v16 (arg5.view.read (Elt F) X5) (arg4.view.read (Elt F) X4) (arg7.view.read (Elt F) X7) (arg6.view.read (Elt F) G6) k
  | 0, _ => by rw [pb_k0_t2.eq_1]; rfl
  | k + 1, hk => by
    have hk' : k < k0_t2_loop.trips := hk
    have ih := loop2 𝒱 bd c i arg1 harg1 arg2 harg2 arg3 harg3 arg4 harg4 arg5 harg5 arg6 harg6 arg7 harg7 v16 v28 X4 X5 X7 G6 k (Nat.le_of_lt hk')
    have e := pb_k0_t2_succ (F := F) 𝒱 c bd i arg1 harg1 arg2 harg2 arg3 harg3 arg4 harg4 arg5 harg5 arg6 harg6 arg7 harg7 v16 v28 X4 X5 X7 G6 ⟨k, hk'⟩
    rw [show (⟨k, hk'⟩ : Fin k0_t2_loop.trips).val + 1 = k + 1 from rfl] at e
    rw [e, View.writes_append, trip2, read_top_whole _ _ zero2, ih, accRec, dif_pos (lt8_2 ⟨k, hk'⟩)]

/-- What a load of the whole accumulator reads after the loop, when the buffers it meets hold lists of stores. -/
theorem after2 (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v16 : FVec F S2048x128 .bf16) (v28 : FVec F S2048x1 .f32)
    (L4 : List (View.Piece (Elt F) S2048x128 .f32)) (L5 : List (View.Piece (Elt F) S2048x128 .bf16))
    (L7 : List (View.Piece (Elt F) S2048x1 .f32)) (L6 : List (View.Piece (Elt F) S2048x128 .f32)) :
    View.readAt (Elt F) arg6.view (Rect.unit ![0, 0] S2048x128.size inb_S2048x128_S2048x128_0_0).toLoadRect
      (arg6.view.writes (Elt F) arg6.view.junk
        (pb_k0_t2 (F := F) Variants.none c none i arg1 harg1 arg2 harg2 arg3 harg3 arg4 harg4 arg5 harg5 arg6 harg6 arg7 harg7 v16 v28
            (arg4.view.writes (Elt F) arg4.view.junk L4) (arg5.view.writes (Elt F) arg5.view.junk L5)
            (arg7.view.writes (Elt F) arg7.view.junk L7) (arg6.view.writes (Elt F) arg6.view.junk L6)
            (Scf.trips k0_t2_loop.lb k0_t2_loop.ub k0_t2_loop.st) ++ L6))
      = accRec bits₁ v16 (View.canon L5) (View.canon L4) (View.canon L7) (View.canon L6) 8 := by
  have ht : Scf.trips k0_t2_loop.lb k0_t2_loop.ub k0_t2_loop.st = 8 := trips2
  rw [readAt_whole _ zero2, View.writes_append, ht,
    loop2 Variants.none none c i arg1 harg1 arg2 harg2 arg3 harg3 arg4 harg4 arg5 harg5 arg6 harg6 arg7 harg7 v16 v28 _ _ _ _ 8 (by rw [trips2]),
    View.read_writes_junk_eq_canon, View.read_writes_junk_eq_canon, View.read_writes_junk_eq_canon, View.read_writes_junk_eq_canon]

end Cert.KernelIdeal.KRun

end
-- ==== Proof.KLoop3.lean ====
/-
  The degree loop of one propagation step, read as the eight-trip recursion: after `k` trips the degree column holds
  `degRec` at `k`, whatever it held at entry. One trip stores one value into the whole column: what it found there plus
  the trip's contribution (`degPay`), computed from the trip's 256 rows of the stored unit rows.
-/
import proofs.«122685_j35759897706671_1_alg».proof.Proof.KView
import proofs.«122685_j35759897706671_1_alg».proof.Proof.Gen.KernelIdeal.Loops

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

theorem trips3 : k0_t3_loop.trips = 8 := by decide

theorem lt8_3 (k : Fin k0_t3_loop.trips) : k.val < 8 := Nat.lt_of_lt_of_le k.isLt k0_t3_abs.2.1

/-- The one piece a trip stores. -/
theorem trip3 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v55 : FVec F S2048x128 .bf16) (v62 : FVec F S2048x1 .f32) (X5 : BufTy.Contents (Elt F) arg5.view.ty)
    (k : Fin k0_t3_loop.trips) (f : BufTy.Contents (Elt F) arg7.view.ty) :
    tripL_k0_t3 (F := F) 𝒱 c bd i arg1 harg1 arg2 harg2 arg3 harg3 arg4 harg4 arg5 harg5 arg6 harg6 arg7 harg7 v55 v62 X5 k f
      = [⟨Rect.unit ![0, 0] S2048x1.size inb_S2048x1_S2048x1_0_0,
          degPay bits₂ v55 (rowsBlk (arg5.view.read (Elt F) X5) k.val (lt8_3 k)) (arg7.view.read (Elt F) f)⟩] := by
  unfold tripL_k0_t3 trip_k0_t3
  dsimp only
  rw [pay16_eq, View.readAt_eq_ld, View.readAt_eq_ld, View.ld_unit_zero zero2]
  unfold View.ld rowsBlk
  rw [ld_off_congr _ (k0_off4_eq k) _ _ (rows_inb k.val (lt8_3 k))]
  rfl

/-- The column after `k` trips. -/
theorem loop3 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v55 : FVec F S2048x128 .bf16) (v62 : FVec F S2048x1 .f32) (X5 : BufTy.Contents (Elt F) arg5.view.ty)
    (G7 : BufTy.Contents (Elt F) arg7.view.ty) :
    ∀ k : ℕ, k ≤ k0_t3_loop.trips →
    arg7.view.read (Elt F) (arg7.view.writes (Elt F) G7 (pb_k0_t3 (F := F) 𝒱 c bd i arg1 harg1 arg2 harg2 arg3 harg3 arg4 harg4 arg5 harg5 arg6 harg6 arg7 harg7 v55 v62 X5 G7 k))
      = degRec bits₂ v55 (arg5.view.read (Elt F) X5) (arg7.view.read (Elt F) G7) k
  | 0, _ => by rw [pb_k0_t3.eq_1]; rfl
  | k + 1, hk => by
    have hk' : k < k0_t3_loop.trips := hk
    have ih := loop3 𝒱 bd c i arg1 harg1 arg2 harg2 arg3 harg3 arg4 harg4 arg5 harg5 arg6 harg6 arg7 harg7 v55 v62 X5 G7 k (Nat.le_of_lt hk')
    have e := pb_k0_t3_succ (F := F) 𝒱 c bd i arg1 harg1 arg2 harg2 arg3 harg3 arg4 harg4 arg5 harg5 arg6 harg6 arg7 harg7 v55 v62 X5 G7 ⟨k, hk'⟩
    rw [show (⟨k, hk'⟩ : Fin k0_t3_loop.trips).val + 1 = k + 1 from rfl] at e
    rw [e, View.writes_append, trip3, read_top_whole _ _ zero2, ih, degRec, dif_pos (lt8_3 ⟨k, hk'⟩)]

/-- What a load of the whole column reads after the loop, when the buffers it meets hold lists of stores. -/
theorem after3 (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v55 : FVec F S2048x128 .bf16) (v62 : FVec F S2048x1 .f32)
    (L5 : List (View.Piece (Elt F) S2048x128 .bf16)) (L7 : List (View.Piece (Elt F) S2048x1 .f32)) :
    View.readAt (Elt F) arg7.view (Rect.unit ![0, 0] S2048x1.size inb_S2048x1_S2048x1_0_0).toLoadRect
      (arg7.view.writes (Elt F) arg7.view.junk
        (pb_k0_t3 (F := F) Variants.none c none i arg1 harg1 arg2 harg2 arg3 harg3 arg4 harg4 arg5 harg5 arg6 harg6 arg7 harg7 v55 v62
            (arg5.view.writes (Elt F) arg5.view.junk L5) (arg7.view.writes (Elt F) arg7.view.junk L7)
            (Scf.trips k0_t3_loop.lb k0_t3_loop.ub k0_t3_loop.st) ++ L7))
      = degRec bits₂ v55 (View.canon L5) (View.canon L7) 8 := by
  have ht : Scf.trips k0_t3_loop.lb k0_t3_loop.ub k0_t3_loop.st = 8 := trips3
  rw [readAt_whole _ zero2, View.writes_append, ht,
    loop3 Variants.none none c i arg1 harg1 arg2 harg2 arg3 harg3 arg4 harg4 arg5 harg5 arg6 harg6 arg7 harg7 v55 v62 _ _ 8 (by rw [trips3]),
    View.read_writes_junk_eq_canon, View.read_writes_junk_eq_canon]

end Cert.KernelIdeal.KRun

end
-- ==== Proof.KLoop4.lean ====
/-
  The accumulator loop of one propagation step, read as the eight-trip recursion: after `k` trips the accumulator holds
  `accRec` at `k`, whatever it held at entry. One trip stores one value into the whole accumulator: what it found there
  plus the trip's contribution (`accPay`), computed from the trip's 256 rows of the stored unit rows, of the features
  and of the column of reciprocal square roots.
-/
import proofs.«122685_j35759897706671_1_alg».proof.Proof.KView
import proofs.«122685_j35759897706671_1_alg».proof.Proof.Gen.KernelIdeal.Loops

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

theorem trips4 : k0_t4_loop.trips = 8 := by decide

theorem lt8_4 (k : Fin k0_t4_loop.trips) : k.val < 8 := Nat.lt_of_lt_of_le k.isLt k0_t4_abs.2.1

/-- The one piece a trip stores. -/
theorem trip4 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v55 : FVec F S2048x128 .bf16) (v62 : FVec F S2048x1 .f32)
    (X4 : BufTy.Contents (Elt F) arg4.view.ty) (X5 : BufTy.Contents (Elt F) arg5.view.ty) (X7 : BufTy.Contents (Elt F) arg7.view.ty)
    (k : Fin k0_t4_loop.trips) (f : BufTy.Contents (Elt F) arg6.view.ty) :
    tripL_k0_t4 (F := F) 𝒱 c bd i arg1 harg1 arg2 harg2 arg3 harg3 arg4 harg4 arg5 harg5 arg6 harg6 arg7 harg7 v55 v62 X4 X5 X7 k f
      = [⟨Rect.unit ![0, 0] S2048x128.size inb_S2048x128_S2048x128_0_0,
          accPay bits₂ v55 (rowsBlk (arg5.view.read (Elt F) X5) k.val (lt8_4 k)) (rowsBlk (arg4.view.read (Elt F) X4) k.val (lt8_4 k))
            (rowsBlk1 (arg7.view.read (Elt F) X7) k.val (lt8_4 k)) (arg6.view.read (Elt F) f)⟩] := by
  unfold tripL_k0_t4 trip_k0_t4
  dsimp only
  rw [pay19_eq, View.readAt_eq_ld, View.readAt_eq_ld, View.readAt_eq_ld, View.readAt_eq_ld, View.ld_unit_zero zero2]
  unfold View.ld rowsBlk rowsBlk1
  rw [ld_off_congr (arg5.view.read (Elt F) X5) (k0_off5_eq k) _ _ (rows_inb k.val (lt8_4 k)),
    ld_off_congr (arg4.view.read (Elt F) X4) (k0_off5_eq k) _ _ (rows_inb k.val (lt8_4 k)),
    ld_off_congr (arg7.view.read (Elt F) X7) (k0_off6_eq k) _ _ (rows1_inb k.val (lt8_4 k))]
  rfl

/-- The accumulator after `k` trips. -/
theorem loop4 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v55 : FVec F S2048x128 .bf16) (v62 : FVec F S2048x1 .f32)
    (X4 : BufTy.Contents (Elt F) arg4.view.ty) (X5 : BufTy.Contents (Elt F) arg5.view.ty) (X7 : BufTy.Contents (Elt F) arg7.view.ty)
    (G6 : BufTy.Contents (Elt F) arg6.view.ty) :
    ∀ k : ℕ, k ≤ k0_t4_loop.trips →
    arg6.view.read (Elt F) (arg6.view.writes (Elt F) G6 (pb_k0_t4 (F := F) 𝒱 c bd i arg1 harg1 arg2 harg2 arg3 harg3 arg4 harg4 arg5 harg5 arg6 harg6 arg7 harg7 v55 v62 X4 X5 X7 G6 k))
      = accRec bits₂ v55 (arg5.view.read (Elt F) X5) (arg4.view.read (Elt F) X4) (arg7.view.read (Elt F) X7) (arg6.view.read (Elt F) G6) k
  | 0, _ => by rw [pb_k0_t4.eq_1]; rfl
  | k + 1, hk => by
    have hk' : k < k0_t4_loop.trips := hk
    have ih := loop4 𝒱 bd c i arg1 harg1 arg2 harg2 arg3 harg3 arg4 harg4 arg5 harg5 arg6 harg6 arg7 harg7 v55 v62 X4 X5 X7 G6 k (Nat.le_of_lt hk')
    have e := pb_k0_t4_succ (F := F) 𝒱 c bd i arg1 harg1 arg2 harg2 arg3 harg3 arg4 harg4 arg5 harg5 arg6 harg6 arg7 harg7 v55 v62 X4 X5 X7 G6 ⟨k, hk'⟩
    rw [show (⟨k, hk'⟩ : Fin k0_t4_loop.trips).val + 1 = k + 1 from rfl] at e
    rw [e, View.writes_append, trip4, read_top_whole _ _ zero2, ih, accRec, dif_pos (lt8_4 ⟨k, hk'⟩)]

/-- What a load of the whole accumulator reads after the loop, when the buffers it meets hold lists of stores. -/
theorem after4 (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v55 : FVec F S2048x128 .bf16) (v62 : FVec F S2048x1 .f32)
    (L4 : List (View.Piece (Elt F) S2048x128 .f32)) (L5 : List (View.Piece (Elt F) S2048x128 .bf16))
    (L7 : List (View.Piece (Elt F) S2048x1 .f32)) (L6 : List (View.Piece (Elt F) S2048x128 .f32)) :
    View.readAt (Elt F) arg6.view (Rect.unit ![0, 0] S2048x128.size inb_S2048x128_S2048x128_0_0).toLoadRect
      (arg6.view.writes (Elt F) arg6.view.junk
        (pb_k0_t4 (F := F) Variants.none c none i arg1 harg1 arg2 harg2 arg3 harg3 arg4 harg4 arg5 harg5 arg6 harg6 arg7 harg7 v55 v62
            (arg4.view.writes (Elt F) arg4.view.junk L4) (arg5.view.writes (Elt F) arg5.view.junk L5)
            (arg7.view.writes (Elt F) arg7.view.junk L7) (arg6.view.writes (Elt F) arg6.view.junk L6)
            (Scf.trips k0_t4_loop.lb k0_t4_loop.ub k0_t4_loop.st) ++ L6))
      = accRec bits₂ v55 (View.canon L5) (View.canon L4) (View.canon L7) (View.canon L6) 8 := by
  have ht : Scf.trips k0_t4_loop.lb k0_t4_loop.ub k0_t4_loop.st = 8 := trips4
  rw [readAt_whole _ zero2, View.writes_append, ht,
    loop4 Variants.none none c i arg1 harg1 arg2 harg2 arg3 harg3 arg4 harg4 arg5 harg5 arg6 harg6 arg7 harg7 v55 v62 _ _ _ _ 8 (by rw [trips4]),
    View.read_writes_junk_eq_canon, View.read_writes_junk_eq_canon, View.read_writes_junk_eq_canon, View.read_writes_junk_eq_canon]

end Cert.KernelIdeal.KRun

end
-- ==== Proof.KLoop5.lean ====
/-
  The degree loop of one propagation step, read as the eight-trip recursion: after `k` trips the degree column holds
  `degRec` at `k`, whatever it held at entry. One trip stores one value into the whole column: what it found there plus
  the trip's contribution (`degPay`), computed from the trip's 256 rows of the stored unit rows.
-/
import proofs.«122685_j35759897706671_1_alg».proof.Proof.KView
import proofs.«122685_j35759897706671_1_alg».proof.Proof.Gen.KernelIdeal.Loops

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

theorem trips5 : k0_t5_loop.trips = 8 := by decide

theorem lt8_5 (k : Fin k0_t5_loop.trips) : k.val < 8 := Nat.lt_of_lt_of_le k.isLt k0_t5_abs.2.1

/-- The one piece a trip stores. -/
theorem trip5 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v83 : Vec F S2048x128 .f32) (v89 : FVec F S2048x1 .f32) (cst_68 : F .f32) (X5 : BufTy.Contents (Elt F) arg5.view.ty)
    (k : Fin k0_t5_loop.trips) (f : BufTy.Contents (Elt F) arg7.view.ty) :
    tripL_k0_t5 (F := F) 𝒱 c bd i arg1 harg1 arg2 harg2 arg3 harg3 arg4 harg4 arg5 harg5 arg6 harg6 arg7 harg7 v83 v89 cst_68 X5 k f
      = [⟨Rect.unit ![0, 0] S2048x1.size inb_S2048x1_S2048x1_0_0,
          degPay bits₃ (k0_pay22 v83 v89 cst_68) (rowsBlk (arg5.view.read (Elt F) X5) k.val (lt8_5 k)) (arg7.view.read (Elt F) f)⟩] := by
  unfold tripL_k0_t5 trip_k0_t5
  dsimp only
  rw [pay25_eq, View.readAt_eq_ld, View.readAt_eq_ld, View.ld_unit_zero zero2]
  unfold View.ld rowsBlk
  rw [ld_off_congr _ (k0_off7_eq k) _ _ (rows_inb k.val (lt8_5 k))]
  rfl

/-- The column after `k` trips. -/
theorem loop5 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v83 : Vec F S2048x128 .f32) (v89 : FVec F S2048x1 .f32) (cst_68 : F .f32) (X5 : BufTy.Contents (Elt F) arg5.view.ty)
    (G7 : BufTy.Contents (Elt F) arg7.view.ty) :
    ∀ k : ℕ, k ≤ k0_t5_loop.trips →
    arg7.view.read (Elt F) (arg7.view.writes (Elt F) G7 (pb_k0_t5 (F := F) 𝒱 c bd i arg1 harg1 arg2 harg2 arg3 harg3 arg4 harg4 arg5 harg5 arg6 harg6 arg7 harg7 v83 v89 cst_68 X5 G7 k))
      = degRec bits₃ (k0_pay22 v83 v89 cst_68) (arg5.view.read (Elt F) X5) (arg7.view.read (Elt F) G7) k
  | 0, _ => by rw [pb_k0_t5.eq_1]; rfl
  | k + 1, hk => by
    have hk' : k < k0_t5_loop.trips := hk
    have ih := loop5 𝒱 bd c i arg1 harg1 arg2 harg2 arg3 harg3 arg4 harg4 arg5 harg5 arg6 harg6 arg7 harg7 v83 v89 cst_68 X5 G7 k (Nat.le_of_lt hk')
    have e := pb_k0_t5_succ (F := F) 𝒱 c bd i arg1 harg1 arg2 harg2 arg3 harg3 arg4 harg4 arg5 harg5 arg6 harg6 arg7 harg7 v83 v89 cst_68 X5 G7 ⟨k, hk'⟩
    rw [show (⟨k, hk'⟩ : Fin k0_t5_loop.trips).val + 1 = k + 1 from rfl] at e
    rw [e, View.writes_append, trip5, read_top_whole _ _ zero2, ih, degRec, dif_pos (lt8_5 ⟨k, hk'⟩)]

/-- What a load of the whole column reads after the loop, when the buffers it meets hold lists of stores. -/
theorem after5 (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v83 : Vec F S2048x128 .f32) (v89 : FVec F S2048x1 .f32) (cst_68 : F .f32)
    (L5 : List (View.Piece (Elt F) S2048x128 .bf16)) (L7 : List (View.Piece (Elt F) S2048x1 .f32)) :
    View.readAt (Elt F) arg7.view (Rect.unit ![0, 0] S2048x1.size inb_S2048x1_S2048x1_0_0).toLoadRect
      (arg7.view.writes (Elt F) arg7.view.junk
        (pb_k0_t5 (F := F) Variants.none c none i arg1 harg1 arg2 harg2 arg3 harg3 arg4 harg4 arg5 harg5 arg6 harg6 arg7 harg7 v83 v89 cst_68
            (arg5.view.writes (Elt F) arg5.view.junk L5) (arg7.view.writes (Elt F) arg7.view.junk L7)
            (Scf.trips k0_t5_loop.lb k0_t5_loop.ub k0_t5_loop.st) ++ L7))
      = degRec bits₃ (k0_pay22 v83 v89 cst_68) (View.canon L5) (View.canon L7) 8 := by
  have ht : Scf.trips k0_t5_loop.lb k0_t5_loop.ub k0_t5_loop.st = 8 := trips5
  rw [readAt_whole _ zero2, View.writes_append, ht,
    loop5 Variants.none none c i arg1 harg1 arg2 harg2 arg3 harg3 arg4 harg4 arg5 harg5 arg6 harg6 arg7 harg7 v83 v89 cst_68 _ _ 8 (by rw [trips5]),
    View.read_writes_junk_eq_canon, View.read_writes_junk_eq_canon]

end Cert.KernelIdeal.KRun

end
-- ==== Proof.KLoop6.lean ====
/-
  The accumulator loop of one propagation step, read as the eight-trip recursion: after `k` trips the accumulator holds
  `accRec` at `k`, whatever it held at entry. One trip stores one value into the whole accumulator: what it found there
  plus the trip's contribution (`accPay`), computed from the trip's 256 rows of the stored unit rows, of the features
  and of the column of reciprocal square roots.
-/
import proofs.«122685_j35759897706671_1_alg».proof.Proof.KView
import proofs.«122685_j35759897706671_1_alg».proof.Proof.Gen.KernelIdeal.Loops

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

theorem trips6 : k0_t6_loop.trips = 8 := by decide

theorem lt8_6 (k : Fin k0_t6_loop.trips) : k.val < 8 := Nat.lt_of_lt_of_le k.isLt k0_t6_abs.2.1

/-- The one piece a trip stores. -/
theorem trip6 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v83 : Vec F S2048x128 .f32) (v89 : FVec F S2048x1 .f32) (cst_68 : F .f32)
    (X4 : BufTy.Contents (Elt F) arg4.view.ty) (X5 : BufTy.Contents (Elt F) arg5.view.ty) (X7 : BufTy.Contents (Elt F) arg7.view.ty)
    (k : Fin k0_t6_loop.trips) (f : BufTy.Contents (Elt F) arg6.view.ty) :
    tripL_k0_t6 (F := F) 𝒱 c bd i arg1 harg1 arg2 harg2 arg3 harg3 arg4 harg4 arg5 harg5 arg6 harg6 arg7 harg7 v83 v89 cst_68 X4 X5 X7 k f
      = [⟨Rect.unit ![0, 0] S2048x128.size inb_S2048x128_S2048x128_0_0,
          accPay bits₃ (k0_pay22 v83 v89 cst_68) (rowsBlk (arg5.view.read (Elt F) X5) k.val (lt8_6 k)) (rowsBlk (arg4.view.read (Elt F) X4) k.val (lt8_6 k))
            (rowsBlk1 (arg7.view.read (Elt F) X7) k.val (lt8_6 k)) (arg6.view.read (Elt F) f)⟩] := by
  unfold tripL_k0_t6 trip_k0_t6
  dsimp only
  rw [pay28_eq, View.readAt_eq_ld, View.readAt_eq_ld, View.readAt_eq_ld, View.readAt_eq_ld, View.ld_unit_zero zero2]
  unfold View.ld rowsBlk rowsBlk1
  rw [ld_off_congr (arg5.view.read (Elt F) X5) (k0_off8_eq k) _ _ (rows_inb k.val (lt8_6 k)),
    ld_off_congr (arg4.view.read (Elt F) X4) (k0_off8_eq k) _ _ (rows_inb k.val (lt8_6 k)),
    ld_off_congr (arg7.view.read (Elt F) X7) (k0_off9_eq k) _ _ (rows1_inb k.val (lt8_6 k))]
  rfl

/-- The accumulator after `k` trips. -/
theorem loop6 (𝒱 : Variants) (bd : Option 𝒱.V) (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v83 : Vec F S2048x128 .f32) (v89 : FVec F S2048x1 .f32) (cst_68 : F .f32)
    (X4 : BufTy.Contents (Elt F) arg4.view.ty) (X5 : BufTy.Contents (Elt F) arg5.view.ty) (X7 : BufTy.Contents (Elt F) arg7.view.ty)
    (G6 : BufTy.Contents (Elt F) arg6.view.ty) :
    ∀ k : ℕ, k ≤ k0_t6_loop.trips →
    arg6.view.read (Elt F) (arg6.view.writes (Elt F) G6 (pb_k0_t6 (F := F) 𝒱 c bd i arg1 harg1 arg2 harg2 arg3 harg3 arg4 harg4 arg5 harg5 arg6 harg6 arg7 harg7 v83 v89 cst_68 X4 X5 X7 G6 k))
      = accRec bits₃ (k0_pay22 v83 v89 cst_68) (arg5.view.read (Elt F) X5) (arg4.view.read (Elt F) X4) (arg7.view.read (Elt F) X7) (arg6.view.read (Elt F) G6) k
  | 0, _ => by rw [pb_k0_t6.eq_1]; rfl
  | k + 1, hk => by
    have hk' : k < k0_t6_loop.trips := hk
    have ih := loop6 𝒱 bd c i arg1 harg1 arg2 harg2 arg3 harg3 arg4 harg4 arg5 harg5 arg6 harg6 arg7 harg7 v83 v89 cst_68 X4 X5 X7 G6 k (Nat.le_of_lt hk')
    have e := pb_k0_t6_succ (F := F) 𝒱 c bd i arg1 harg1 arg2 harg2 arg3 harg3 arg4 harg4 arg5 harg5 arg6 harg6 arg7 harg7 v83 v89 cst_68 X4 X5 X7 G6 ⟨k, hk'⟩
    rw [show (⟨k, hk'⟩ : Fin k0_t6_loop.trips).val + 1 = k + 1 from rfl] at e
    rw [e, View.writes_append, trip6, read_top_whole _ _ zero2, ih, accRec, dif_pos (lt8_6 ⟨k, hk'⟩)]

/-- What a load of the whole accumulator reads after the loop, when the buffers it meets hold lists of stores. -/
theorem after6 (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (v83 : Vec F S2048x128 .f32) (v89 : FVec F S2048x1 .f32) (cst_68 : F .f32)
    (L4 : List (View.Piece (Elt F) S2048x128 .f32)) (L5 : List (View.Piece (Elt F) S2048x128 .bf16))
    (L7 : List (View.Piece (Elt F) S2048x1 .f32)) (L6 : List (View.Piece (Elt F) S2048x128 .f32)) :
    View.readAt (Elt F) arg6.view (Rect.unit ![0, 0] S2048x128.size inb_S2048x128_S2048x128_0_0).toLoadRect
      (arg6.view.writes (Elt F) arg6.view.junk
        (pb_k0_t6 (F := F) Variants.none c none i arg1 harg1 arg2 harg2 arg3 harg3 arg4 harg4 arg5 harg5 arg6 harg6 arg7 harg7 v83 v89 cst_68
            (arg4.view.writes (Elt F) arg4.view.junk L4) (arg5.view.writes (Elt F) arg5.view.junk L5)
            (arg7.view.writes (Elt F) arg7.view.junk L7) (arg6.view.writes (Elt F) arg6.view.junk L6)
            (Scf.trips k0_t6_loop.lb k0_t6_loop.ub k0_t6_loop.st) ++ L6))
      = accRec bits₃ (k0_pay22 v83 v89 cst_68) (View.canon L5) (View.canon L4) (View.canon L7) (View.canon L6) 8 := by
  have ht : Scf.trips k0_t6_loop.lb k0_t6_loop.ub k0_t6_loop.st = 8 := trips6
  rw [readAt_whole _ zero2, View.writes_append, ht,
    loop6 Variants.none none c i arg1 harg1 arg2 harg2 arg3 harg3 arg4 harg4 arg5 harg5 arg6 harg6 arg7 harg7 v83 v89 cst_68 _ _ _ _ 8 (by rw [trips6]),
    View.read_writes_junk_eq_canon, View.read_writes_junk_eq_canon, View.read_writes_junk_eq_canon, View.read_writes_junk_eq_canon]

end Cert.KernelIdeal.KRun

end
-- ==== Proof.KChain.lean ====
/-
  What the body leaves in the output block, step by step. The features buffer starts as the input block; each
  propagation step reads it, stores the unit rows, builds the degree column and the accumulator in their loops,
  and stores the scaled accumulator back as the new features; after three steps the features plus the input block,
  times the weights, is stored into the output block. Each value the body computes along the way is named here
  as a function of the input block alone, and the one store into the output block carries `kernelValue`.
-/
import proofs.«122685_j35759897706671_1_alg».proof.Proof.KLoop1
import proofs.«122685_j35759897706671_1_alg».proof.Proof.KLoop2
import proofs.«122685_j35759897706671_1_alg».proof.Proof.KLoop3
import proofs.«122685_j35759897706671_1_alg».proof.Proof.KLoop4
import proofs.«122685_j35759897706671_1_alg».proof.Proof.KLoop5
import proofs.«122685_j35759897706671_1_alg».proof.Proof.KLoop6
import proofs.«122685_j35759897706671_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]

/-- The degree column of a step, the column of reciprocal square roots, and the accumulator. -/
def degV (t : BitVec 32) (h : Vec F S2048x128 .f32) : Vec F S2048x1 .f32 := degRec t (k0_pay4 h) (k0_pay5 h) k0_pay6 8
def isqV (t : BitVec 32) (h : Vec F S2048x128 .f32) : Vec F S2048x1 .f32 := k0_pay9 (k0_pay8 (degV t h))
def accV (t : BitVec 32) (h : Vec F S2048x128 .f32) : Vec F S2048x128 .f32 :=
  accRec t (k0_pay4 h) (k0_pay5 h) h (isqV t h) k0_pay10 8

theorem stepV_eq (t : BitVec 32) (h : Vec F S2048x128 .f32) : stepV t h = k0_pay12 (isqV t h) (accV t h) := rfl

/-- The features after one and after two steps. -/
def feat₀ (x0 : Vec F S1x2048x128 .f32) : Vec F S2048x128 .f32 := k0_pay3 x0
def feat₁ (x0 : Vec F S1x2048x128 .f32) : Vec F S2048x128 .f32 := stepV bits₁ (feat₀ x0)
def feat₂ (x0 : Vec F S1x2048x128 .f32) : Vec F S2048x128 .f32 := stepV bits₂ (feat₁ x0)

variable (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (x0 : Vec F S1x2048x128 .f32)

/-- The input block, loaded whole from its staging buffer. -/
theorem load_x0 : View.readAt (Elt F) arg1.view (Rect.unit ![0, 0, 0] S1x2048x128.size inb_S1x2048x128_S1x2048x128_0_0_0).toLoadRect (harg1.unread x0) = x0 := by
  rw [readAt_whole _ zero3, harg1.read_unread]

theorem canon_HS0_1 : View.canon (kernelRun0_A.sl.HS0_1 c arg1 harg1 x0) = feat₀ x0 := by
  unfold kernelRun0_A.sl.HS0_1
  rw [View.canon_unit_zero zero2, load_x0]; rfl

theorem v5_eq : kernelRun0_A.sl.v5 c arg1 harg1 arg4 x0 = feat₀ x0 := by
  unfold kernelRun0_A.sl.v5
  rw [readCov_whole _ zero2, canon_HS0_1]

theorem r_eq : kernelRun0_A.sl.r c arg1 harg1 arg4 x0 = k0_pay4 (feat₀ x0) := by
  unfold kernelRun0_A.sl.r; rw [v5_eq]

theorem canon_HS1_1 : View.canon (kernelRun0_A.sl.HS1_1 c arg1 harg1 arg4 x0) = k0_pay5 (feat₀ x0) := by
  unfold kernelRun0_A.sl.HS1_1
  rw [View.canon_unit_zero zero2, v5_eq]

theorem canon_HS3_1 : View.canon (kernelRun0_A.sl.HS3_1 (F := F)) = k0_pay6 := by
  unfold kernelRun0_A.sl.HS3_1
  rw [View.canon_unit_zero zero2]

theorem canon_HS2_1 : View.canon (kernelRun0_A.sl.HS2_1 (F := F)) = k0_pay10 := by
  unfold kernelRun0_A.sl.HS2_1
  rw [View.canon_unit_zero zero2]

theorem v25_eq : kernelRun0_A.sl.v25 c i arg1 harg1 arg2 harg2 arg3 harg3 arg4 harg4 arg5 harg5 arg6 harg6 arg7 harg7 x0 = degV bits₁ (feat₀ x0) := by
  unfold kernelRun0_A.sl.v25
  rw [after1, canon_HS1_1, canon_HS3_1, v5_eq]; rfl

theorem r_1_eq : kernelRun0_A.sl.r_1 c i arg1 harg1 arg2 harg2 arg3 harg3 arg4 harg4 arg5 harg5 arg6 harg6 arg7 harg7 x0 = k0_pay8 (degV bits₁ (feat₀ x0)) := by
  unfold kernelRun0_A.sl.r_1; rw [v25_eq]

theorem v37_eq : kernelRun0_A.sl.v37 c i arg1 harg1 arg2 harg2 arg3 harg3 arg4 harg4 arg5 harg5 arg6 harg6 arg7 harg7 x0 = isqV bits₁ (feat₀ x0) := by
  unfold kernelRun0_A.sl.v37
  rw [readCov_whole _ zero2, View.canon_cons_unit_zero zero2, r_1_eq]; rfl

theorem v38_eq : kernelRun0_A.sl.v38 c i arg1 harg1 arg2 harg2 arg3 harg3 arg4 harg4 arg5 harg5 arg6 harg6 arg7 harg7 x0 = accV bits₁ (feat₀ x0) := by
  unfold kernelRun0_A.sl.v38
  rw [after2, canon_HS0_1, canon_HS1_1, canon_HS2_1, View.canon_cons_unit_zero zero2, r_eq, r_1_eq]; rfl

theorem canon_HS0_2 : View.canon (kernelRun0_A.sl.HS0_2 c i arg1 harg1 arg2 harg2 arg3 harg3 arg4 harg4 arg5 harg5 arg6 harg6 arg7 harg7 x0) = feat₁ x0 := by
  unfold kernelRun0_A.sl.HS0_2
  rw [View.canon_cons_unit_zero zero2, v37_eq, v38_eq]; rfl

theorem v44_eq : kernelRun0_A.sl.v44 c i arg1 harg1 arg2 harg2 arg3 harg3 arg4 harg4 arg5 harg5 arg6 harg6 arg7 harg7 x0 = feat₁ x0 := by
  unfold kernelRun0_A.sl.v44
  rw [readCov_whole _ zero2, canon_HS0_2]

theorem r_2_eq : kernelRun0_A.sl.r_2 c i arg1 harg1 arg2 harg2 arg3 harg3 arg4 harg4 arg5 harg5 arg6 harg6 arg7 harg7 x0 = k0_pay4 (feat₁ x0) := by
  unfold kernelRun0_A.sl.r_2; rw [v44_eq, pay13_eq]

theorem v64_eq : kernelRun0_A.sl.v64 c i arg1 harg1 arg2 harg2 arg3 harg3 arg4 harg4 arg5 harg5 arg6 harg6 arg7 harg7 x0 = degV bits₂ (feat₁ x0) := by
  unfold kernelRun0_A.sl.v64
  rw [after3, View.canon_cons_unit_zero zero2, View.canon_cons_unit_zero zero2, r_2_eq, v44_eq, pay14_eq, pay15_eq]; rfl

theorem v76_eq : kernelRun0_A.sl.v76 c i arg1 harg1 arg2 harg2 arg3 harg3 arg4 harg4 arg5 harg5 arg6 harg6 arg7 harg7 x0 = isqV bits₂ (feat₁ x0) := by
  unfold kernelRun0_A.sl.v76
  rw [readCov_whole _ zero2, View.canon_cons_unit_zero zero2, v64_eq, pay17_eq]; rfl

theorem v77_eq : kernelRun0_A.sl.v77 c i arg1 harg1 arg2 harg2 arg3 harg3 arg4 harg4 arg5 harg5 arg6 harg6 arg7 harg7 x0 = accV bits₂ (feat₁ x0) := by
  unfold kernelRun0_A.sl.v77
  rw [after4, canon_HS0_2, View.canon_cons_unit_zero zero2, View.canon_cons_unit_zero zero2, View.canon_cons_unit_zero zero2,
    r_2_eq, v44_eq, v64_eq, pay14_eq, pay17_eq, pay18_eq]; rfl

theorem canon_HS0_3 : View.canon (kernelRun0_A.sl.HS0_3 c i arg1 harg1 arg2 harg2 arg3 harg3 arg4 harg4 arg5 harg5 arg6 harg6 arg7 harg7 x0) = feat₂ x0 := by
  unfold kernelRun0_A.sl.HS0_3
  rw [View.canon_cons_unit_zero zero2, v76_eq, v77_eq, pay20_eq]; rfl

theorem v83_eq : kernelRun0_A.sl.v83 c i arg1 harg1 arg2 harg2 arg3 harg3 arg4 harg4 arg5 harg5 arg6 harg6 arg7 harg7 x0 = feat₂ x0 := by
  unfold kernelRun0_A.sl.v83
  rw [readCov_whole _ zero2, canon_HS0_3]

theorem r_3_eq : kernelRun0_A.sl.r_3 c i arg1 harg1 arg2 harg2 arg3 harg3 arg4 harg4 arg5 harg5 arg6 harg6 arg7 harg7 x0 = k0_pay21 (feat₂ x0) := by
  unfold kernelRun0_A.sl.r_3; rw [v83_eq]

theorem cst_68_eq : kernelRun0_A.sl.cst_68 (F := F) = FloatOps.ofBits .f32 1065353216#32 := rfl

theorem v103_eq : kernelRun0_A.sl.v103 c i arg1 harg1 arg2 harg2 arg3 harg3 arg4 harg4 arg5 harg5 arg6 harg6 arg7 harg7 x0 = degV bits₃ (feat₂ x0) := by
  unfold kernelRun0_A.sl.v103
  rw [after5, View.canon_cons_unit_zero zero2, View.canon_cons_unit_zero zero2, v83_eq, r_3_eq, cst_68_eq, pay22_eq, pay23_eq, pay24_eq]; rfl

theorem v115_eq : kernelRun0_A.sl.v115 c i arg1 harg1 arg2 harg2 arg3 harg3 arg4 harg4 arg5 harg5 arg6 harg6 arg7 harg7 x0 = isqV bits₃ (feat₂ x0) := by
  unfold kernelRun0_A.sl.v115
  rw [readCov_whole _ zero2, View.canon_cons_unit_zero zero2, v103_eq, pay26_eq]; rfl

theorem v116_eq : kernelRun0_A.sl.v116 c i arg1 harg1 arg2 harg2 arg3 harg3 arg4 harg4 arg5 harg5 arg6 harg6 arg7 harg7 x0 = accV bits₃ (feat₂ x0) := by
  unfold kernelRun0_A.sl.v116
  rw [after6, canon_HS0_3, View.canon_cons_unit_zero zero2, View.canon_cons_unit_zero zero2, View.canon_cons_unit_zero zero2,
    v83_eq, r_3_eq, cst_68_eq, v103_eq, pay22_eq, pay23_eq, pay26_eq, pay27_eq]; rfl

theorem v122_eq : kernelRun0_A.sl.v122 c i arg1 harg1 arg2 harg2 arg3 harg3 arg4 harg4 arg5 harg5 arg6 harg6 arg7 harg7 x0 = stepV bits₃ (feat₂ x0) := by
  unfold kernelRun0_A.sl.v122 kernelRun0_A.sl.HS0_4 kernelRun0_A.sl.r_4
  rw [readCov_whole _ zero2, View.canon_cons_unit_zero zero2, v115_eq, v116_eq, pay29_eq]; rfl

/-- The body's one store into the output block. -/
theorem run_pieces (x1 : Vec F S128x128 .f32) :
    (kernelRun0_A (F := F) c i arg1 harg1 arg2 harg2 arg3 harg3 arg4 harg4 arg5 harg5 arg6 harg6 arg7 harg7 x0 x1).1
      = [⟨Rect.unit ![0, 0, 0] S1x2048x128.size inb_S1x2048x128_S1x2048x128_0_0_0, kernelValue x0 x1⟩] := by
  unfold kernelRun0_A
  dsimp only
  rw [v122_eq, load_x0, readAt_whole _ zero2, harg2.read_unread]; rfl

/-- What the body leaves in the output's staging buffer. -/
theorem out_eq (x1 : Vec F S128x128 .f32) : out0_A_2 (F := F) c i arg1 harg1 arg2 harg2 arg3 harg3 arg4 harg4 arg5 harg5 arg6 harg6 arg7 harg7 x0 x1 = kernelValue x0 x1 := by
  unfold out0_A_2
  rw [run_pieces, read_top_whole _ _ zero3]

end Cert.KernelIdeal.KRun

end
-- ==== Proof.KBlocks.lean ====
/-
  Rows in blocks of 256. Entry `(c, g)` of trip `k`'s block of a 2048-row matrix is entry `(256 k + c, g)` of the
  matrix, and a sum over all 2048 rows is the sum, over the eight blocks in turn, of the sums over each block's rows:
  `partialSum g k` is the sum over the rows below `256 k`, it starts at zero, each block adds its 256 rows, and
  after eight blocks it is the whole sum.
-/
import proofs.«122685_j35759897706671_1_alg».proof.Proof.KModel
import Idealize.ShloMosaic.Lib.ValueIdx

noncomputable section

namespace Cert.KernelIdeal.KRun

open Cert.KernelIdeal
open Idealize.ShloMosaic Idealize.ShloMosaic.ValueIdx
open scoped BigOperators

theorem row_lt {k : ℕ} (hk : k < 8) (c : Fin 256) : 256 * k + c.val < 2048 := by have := c.isLt; omega

theorem rowsBlk_apply {α : Type} (X : S2048x128.Idx → α) (k : ℕ) (hk : k < 8) (c : Fin 256) (g : Fin 128) :
    rowsBlk X k hk (ix2 c g) = X (ix2 ⟨256 * k + c.val, row_lt hk c⟩ g) := by
  unfold rowsBlk
  refine congrArg X (funext fun a => Fin.ext ?_)
  rw [LoadRect.idx_apply]
  match a with
  | ⟨0, _⟩ => simp [Rect.unit]
  | ⟨1, _⟩ => simp [Rect.unit]

theorem rowsBlk1_apply {α : Type} (X : S2048x1.Idx → α) (k : ℕ) (hk : k < 8) (c : Fin 256) (z : Fin 1) :
    rowsBlk1 X k hk (ix2 c z) = X (ix2 ⟨256 * k + c.val, row_lt hk c⟩ z) := by
  unfold rowsBlk1
  refine congrArg X (funext fun a => Fin.ext ?_)
  rw [LoadRect.idx_apply]
  match a with
  | ⟨0, _⟩ => simp [Rect.unit]
  | ⟨1, _⟩ => simp [Rect.unit]

/-- The sum over the rows below `256 k`. -/
def partialSum {M : Type} [AddCommMonoid M] (g : Fin 2048 → M) (k : ℕ) : M :=
  ∑ m : Fin 2048, if m.val < 256 * k then g m else 0

theorem partialSum_zero {M : Type} [AddCommMonoid M] (g : Fin 2048 → M) : partialSum g 0 = 0 := by
  simp [partialSum]

theorem partialSum_succ {M : Type} [AddCommMonoid M] (g : Fin 2048 → M) (k : ℕ) (hk : k < 8) :
    partialSum g (k + 1) = partialSum g k + ∑ c : Fin 256, g ⟨256 * k + c.val, row_lt hk c⟩ := by
  unfold partialSum
  -- a row below `256 (k + 1)` is below `256 k` or in the block `256 k … 256 k + 255`, never both
  have split : ∀ m : Fin 2048, (if m.val < 256 * (k + 1) then g m else 0)
      = (if m.val < 256 * k then g m else 0) + (if 256 * k ≤ m.val ∧ m.val < 256 * k + 256 then g m else 0) := by
    intro m
    by_cases h1 : m.val < 256 * k
    · rw [if_pos (by omega), if_pos h1, if_neg (by omega), add_zero]
    · by_cases h2 : m.val < 256 * k + 256
      · rw [if_pos (by omega), if_neg h1, if_pos ⟨by omega, h2⟩, zero_add]
      · rw [if_neg (by omega), if_neg h1, if_neg (by omega), add_zero]
  rw [Finset.sum_congr rfl (fun m _ => split m), Finset.sum_add_distrib]
  congr 1
  -- the block's rows are the `256 k + c`, `c` below 256
  rw [← Finset.sum_filter]
  symm
  refine Finset.sum_bij (fun c _ => (⟨256 * k + c.val, row_lt hk c⟩ : Fin 2048)) ?_ ?_ ?_ ?_
  · intro c _
    have := c.isLt
    simp only [Finset.mem_filter, Finset.mem_univ, true_and]
    omega
  · intro c₁ _ c₂ _ h
    have := Fin.mk.inj h
    exact Fin.ext (by omega)
  · intro m hm
    simp only [Finset.mem_filter, Finset.mem_univ, true_and] at hm
    exact ⟨⟨m.val - 256 * k, by omega⟩, Finset.mem_univ _, Fin.ext (by simp only; omega)⟩
  · intro c _; rfl

theorem partialSum_eight {M : Type} [AddCommMonoid M] (g : Fin 2048 → M) : partialSum g 8 = ∑ m, g m := by
  unfold partialSum
  exact Finset.sum_congr rfl fun m _ => if_pos (by have := m.isLt; omega)

end Cert.KernelIdeal.KRun

end
-- ==== Proof.KValDeg.lean ====
/-
  The first half of one propagation step, read entry by entry over the extended reals.

  The unit rows are each feature row times the reciprocal of its clamped length; the degree column starts at zero;
  one trip adds to the degree of row `n` the kept inner products of unit row `n` with the trip's 256 unit rows, so
  that after the eight trips the degree of row `n` is the starting value plus the sum over all 2048 rows `m` of the
  kept inner products of unit rows `n` and `m`; and the scale of row `n` is the reciprocal square root of its degree.
-/
import proofs.«122685_j35759897706671_1_alg».proof.Proof.KBlocks
import proofs.«122685_j35759897706671_1_alg».proof.Proof.GraphStep
import proofs.«122685_j35759897706671_1_alg».proof.Proof.Consts
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Cert.KernelIdeal.KRun
open Idealize.ShloMosaic Idealize.ShloMosaic.ValueIdx
open scoped BigOperators

/-! ## Layout steps at an index -/

/-- A column read from a vector of 2048 entries. -/
theorem col_of_vec {α : Type} (v : S2048.Idx → α) (h : S2048.ShapeCasts S2048x1) (n : Fin 2048) :
    shapeCast S2048x1 v h (ix2 n (0 : Fin 1)) = v (ix1 n) := by
  refine shapeCast_apply v h _ _ ?_
  rw [Shape.rowMajor_val_one, Shape.rowMajor_val_two]
  simp

/-- A column spread along 128 lanes. -/
theorem spread_col {α : Type} (v : S2048x1.Idx → α) (h : S2048x1.Broadcasts S2048x128) (n : Fin 2048) (f : Fin 128) :
    broadcastTo S2048x128 v h (ix2 n f) = v (ix2 n (0 : Fin 1)) := by
  refine broadcastTo_apply v h _ _ (fun a => ?_)
  match a with
  | ⟨0, _⟩ => show n.val = if (2048 : Nat) = 1 then 0 else n.val; rw [if_neg (by decide)]
  | ⟨1, _⟩ => show 0 = if (1 : Nat) = 1 then 0 else f.val; rw [if_pos rfl]

/-- A square root at an index is the square root of the element. -/
theorem sqrt_apply {s : Shape} {φ : FTy} (a : FVec Ideal s φ) (i : s.Idx) : sqrt a i = Ideal.sqrt (a i) := rfl

/-- The index a sum along a row of 128 runs over. -/
theorem lift128 (h : S2048x128.Reduces [1] S2048) (n : Fin 2048) (k : Fin 128) : h.lift (ix1 n) k = ix2 n k :=
  funext fun a => by match a with | ⟨0, _⟩ => rfl | ⟨1, _⟩ => rfl

/-- The index a sum along a row of 256 runs over. -/
theorem lift256 (h : S2048x256.Reduces [1] S2048) (n : Fin 2048) (c : Fin 256) : h.lift (ix1 n) c = ix2 n c :=
  funext fun a => by match a with | ⟨0, _⟩ => rfl | ⟨1, _⟩ => rfl

/-- A sum along each row of 128, read at a row. -/
theorem rowSum128 (src : FVec Ideal S2048x128 .f32) (h : S2048x128.Reduces [1] S2048) (hφ : FKind.Formats .f32)
    (hacc : (0x00000000#32 : BitVec 32) = 0x00000000#32) (n : Fin 2048) :
    multiReduction (F := Ideal) .add [1] S2048 src 0x00000000#32 h hφ hacc (ix1 n) = ∑ k : Fin 128, src (ix2 n k) := by
  refine (Ideal.multiReduction_add_single src 0x00000000#32 h hφ hacc (ix1 n)).trans ?_
  exact Finset.sum_congr rfl fun k _ => congrArg src (lift128 h n k)

/-- A sum along each row of 256, read at a row. -/
theorem rowSum256 (src : FVec Ideal S2048x256 .f32) (h : S2048x256.Reduces [1] S2048) (hφ : FKind.Formats .f32)
    (hacc : (0x00000000#32 : BitVec 32) = 0x00000000#32) (n : Fin 2048) :
    multiReduction (F := Ideal) .add [1] S2048 src 0x00000000#32 h hφ hacc (ix1 n) = ∑ c : Fin 256, src (ix2 n c) := by
  refine (Ideal.multiReduction_add_single src 0x00000000#32 h hφ hacc (ix1 n)).trans ?_
  exact Finset.sum_congr rfl fun c _ => congrArg src (lift256 h n c)

/-! ## The unit rows, the zero column, the reciprocal square roots -/

theorem pay4_apply (h : Vec Ideal S2048x128 .f32) (n : Fin 2048) (f : Fin 128) :
    k0_pay4 (F := Ideal) h (ix2 n f) = GraphStep.unitMul GraphConsts.eps (fun n f => h (ix2 n f)) n f := by
  unfold k0_pay4
  simp only []
  rw [truncf_apply, mulf_apply, spread_col, divf_apply, broadcast_apply, maximumf_apply, broadcast_apply, sqrt_apply,
    col_of_vec, rowSum128]
  unfold GraphStep.unitMul GraphStep.rowNorm GraphConsts.eps
  rw [Ideal.ofBits_def, Ideal.ofBits_def, GraphConsts.one_eq]
  refine congrArg (fun s => h (ix2 n f) * Ideal.div 1 (max (Ideal.sqrt s) _)) (Finset.sum_congr rfl fun k _ => ?_)
  rw [mulf_apply]

theorem pay5_eq (h : Vec Ideal S2048x128 .f32) : k0_pay5 (F := Ideal) h = k0_pay4 h := by
  unfold k0_pay5
  exact shapeCast_self _ _

theorem pay6_apply (j : S2048x1.Idx) : k0_pay6 (F := Ideal) j = 0 := by
  unfold k0_pay6
  rw [shapeCast_self, broadcast_apply, Ideal.ofBits_def, GraphConsts.zero_eq]

theorem isq_apply (d : Vec Ideal S2048x1 .f32) (n : Fin 2048) :
    k0_pay9 (F := Ideal) (k0_pay8 d) (ix2 n (0 : Fin 1)) = GraphStep.invSqrt (d (ix2 n 0)) := by
  unfold k0_pay9 k0_pay8
  simp only []
  rw [shapeCast_self, divf_apply, broadcast_apply, sqrt_apply, Ideal.ofBits_def, GraphConsts.one_eq]
  rfl

/-! ## The products of unit rows: one trip's 2048 × 256 block -/

theorem lhs_gram_0 (i : S2048x256.Idx) (q : dot_S2048x128_S256x128_S2048x256_1_1_0_0_n_n.contr.Idx) :
    (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide), dif_pos (show (0 : Fin S2048x128.rank) ∈ dot_S2048x128_S256x128_S2048x256_1_1_0_0_n_n.lhsNonContracting by decide)]
  rfl
theorem lhs_gram_1 (i : S2048x256.Idx) (q : dot_S2048x128_S256x128_S2048x256_1_1_0_0_n_n.contr.Idx) :
    (dot_S2048x128_S256x128_S2048x256_1_1_0_0_n_n.lhsIdx i q 1).val = (q ⟨0, by decide⟩).val :=
  dot_S2048x128_S256x128_S2048x256_1_1_0_0_n_n.lhsIdx_val_of_single rfl i q
theorem rhs_gram_0 (i : S2048x256.Idx) (q : dot_S2048x128_S256x128_S2048x256_1_1_0_0_n_n.contr.Idx) :
    (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide), dif_pos (show (0 : Fin S256x128.rank) ∈ dot_S2048x128_S256x128_S2048x256_1_1_0_0_n_n.rhsNonContracting by decide)]
  rfl
theorem rhs_gram_1 (i : S2048x256.Idx) (q : dot_S2048x128_S256x128_S2048x256_1_1_0_0_n_n.contr.Idx) :
    (dot_S2048x128_S256x128_S2048x256_1_1_0_0_n_n.rhsIdx i q 1).val = (q ⟨0, by decide⟩).val :=
  dot_S2048x128_S256x128_S2048x256_1_1_0_0_n_n.rhsIdx_val_of_single rfl i q

/-- Entry `(n, c)` of the block is the inner product of unit row `n` with the trip's row `c`. -/
theorem gram_apply (xn : FVec Ideal S2048x128 .bf16) (blk : FVec Ideal S256x128 .bf16) (n : Fin 2048) (c : Fin 256) :
    matmul dot_S2048x128_S256x128_S2048x256_1_1_0_0_n_n none xn blk (constant (F := Ideal) S2048x256 .f32 0x00000000#32) (ix2 n c)
      = ∑ g : Fin 128, xn (ix2 n g) * blk (ix2 c g) := by
  simp only [matmul]
  rw [Ideal.matmul_constant_zero_apply, ← Equiv.sum_comp (contrEquiv1 dot_S2048x128_S256x128_S2048x256_1_1_0_0_n_n 128 rfl rfl).symm]
  refine Finset.sum_congr rfl fun k _ => ?_
  have hk := contrEquiv1_symm_val dot_S2048x128_S256x128_S2048x256_1_1_0_0_n_n 128 rfl rfl k
  have el : dot_S2048x128_S256x128_S2048x256_1_1_0_0_n_n.lhsIdx (ix2 n c) ((contrEquiv1 dot_S2048x128_S256x128_S2048x256_1_1_0_0_n_n 128 rfl rfl).symm k) = ix2 n k := funext fun a => Fin.ext (by
    match a with
    | ⟨0, _⟩ => exact lhs_gram_0 _ _
    | ⟨1, _⟩ => exact (lhs_gram_1 _ _).trans hk)
  have er : dot_S2048x128_S256x128_S2048x256_1_1_0_0_n_n.rhsIdx (ix2 n c) ((contrEquiv1 dot_S2048x128_S256x128_S2048x256_1_1_0_0_n_n 128 rfl rfl).symm k) = ix2 c k := funext fun a => Fin.ext (by
    match a with
    | ⟨0, _⟩ => exact rhs_gram_0 _ _
    | ⟨1, _⟩ => exact (rhs_gram_1 _ _).trans hk)
  rw [el, er]

/-- Choosing, by the bit "strictly above the threshold", between an entry and zero keeps the entry exactly when it is above. -/
theorem keep_select (g t : EReal) :
    Scalar.select (FloatOps.cmpf (F := Ideal) (φ := .f32) .ogt g t) g (FloatOps.ofBits (F := Ideal) .f32 0x00000000#32)
      = GraphStep.keepAbove t g := by
  unfold GraphStep.keepAbove
  rw [Ideal.ofBits_def, GraphConsts.zero_eq]
  show Scalar.select (Ideal.cmp .ogt g t) g 0 = _
  by_cases h : t < g
  · have hb : Ideal.cmp .ogt g t = 1#1 := by simp [Ideal.cmp, h]
    rw [hb, select_one, if_pos h]
  · have hb : Ideal.cmp .ogt g t = 0#1 := by simp [Ideal.cmp, h]
    rw [hb, select_zero, if_neg h]

/-! ## One trip's contribution to the degrees -/

theorem degPay_apply (t : BitVec 32) (xn : FVec Ideal S2048x128 .bf16) (blk : Vec Ideal S256x128 .bf16) (d : Vec Ideal S2048x1 .f32) (n : Fin 2048) :
    degPay (F := Ideal) t xn blk d (ix2 n (0 : Fin 1))
      = d (ix2 n 0) + ∑ c : Fin 256, GraphStep.keepAbove (Ideal.ofBits .f32 t) (∑ g : Fin 128, xn (ix2 n g) * blk (ix2 c g)) := by
  unfold degPay
  simp only []
  rw [shapeCast_self, addf_apply, col_of_vec, rowSum256]
  refine congrArg (d (ix2 n 0) + ·) (Finset.sum_congr rfl fun c _ => ?_)
  rw [select_apply, cmpf_apply, broadcast_apply, broadcast_apply, gram_apply]
  exact keep_select _ _

/-! ## The degrees after the eight trips -/

/-- After `k` trips the degree of row `n` is the starting value plus the kept products with the rows below `256 k`. -/
theorem degRec_partial (t : BitVec 32) (xn : FVec Ideal S2048x128 .bf16) (S5 : Vec Ideal S2048x128 .bf16) (d0 : Vec Ideal S2048x1 .f32) (n : Fin 2048) :
    ∀ k : ℕ, k ≤ 8 → degRec (F := Ideal) t xn S5 d0 k (ix2 n (0 : Fin 1))
      = d0 (ix2 n 0) + partialSum (fun m : Fin 2048 => GraphStep.keepAbove (Ideal.ofBits .f32 t) (∑ g : Fin 128, xn (ix2 n g) * S5 (ix2 m g))) k
  | 0, _ => by
      rw [partialSum_zero, add_zero]
      rfl
  | k + 1, hk => by
      have hk' : k < 8 := by omega
      have ih := degRec_partial t xn S5 d0 n k (by omega)
      show (if hk : k < 8 then degPay t xn (rowsBlk S5 k hk) (degRec t xn S5 d0 k) else degRec t xn S5 d0 k) (ix2 n (0 : Fin 1)) = _
      rw [dif_pos hk', degPay_apply, ih, partialSum_succ _ k hk', add_assoc]
      refine congrArg (fun s => d0 (ix2 n 0) + (partialSum _ k + s)) (Finset.sum_congr rfl fun c _ => ?_)
      refine congrArg (GraphStep.keepAbove _) (Finset.sum_congr rfl fun g _ => ?_)
      rw [rowsBlk_apply]

theorem degRec_apply (t : BitVec 32) (xn : FVec Ideal S2048x128 .bf16) (S5 : Vec Ideal S2048x128 .bf16) (d0 : Vec Ideal S2048x1 .f32) (n : Fin 2048) :
    degRec (F := Ideal) t xn S5 d0 8 (ix2 n (0 : Fin 1))
      = d0 (ix2 n 0) + ∑ m : Fin 2048, GraphStep.keepAbove (Ideal.ofBits .f32 t) (∑ g : Fin 128, xn (ix2 n g) * S5 (ix2 m g)) := by
  rw [degRec_partial t xn S5 d0 n 8 (le_refl 8), partialSum_eight]

end Cert.KernelIdeal.KVal

end
-- ==== Proof.KValAcc.lean ====
/-
  The accumulator of one propagation step, read entry by entry at the extended reals.

  One trip adds to entry (n, f) of the accumulator the sum, over the trip's 256 rows c, of the kept product of
  unit row n with unit row c (kept where above the threshold, else zero) times feature (c, f) scaled by row c's
  reciprocal square root of the degree. The inner products of unit rows are a product of a 2048 x 128 matrix with a
  256 x 128 matrix along the second axis of both; the sum over c is a plain matrix product. After eight trips the
  accumulator holds the sum over all 2048 rows. The remaining payloads are pointwise: the zero the accumulator
  starts from, the final scaling of row n by its own reciprocal square root, the input block read without its
  leading unit axis, and the last product with the weights.
-/
import proofs.«122685_j35759897706671_1_alg».proof.Proof.KBlocks
import proofs.«122685_j35759897706671_1_alg».proof.Proof.GraphStep
import proofs.«122685_j35759897706671_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Cert.KernelIdeal.KRun
open Idealize.ShloMosaic Idealize.ShloMosaic.ValueIdx Idealize.SL.Sem
open scoped BigOperators

/-! ## The product of all unit rows with a trip's unit rows -/

theorem lhs_gramA_0 (i : S2048x256.Idx) (q : dot_S2048x128_S256x128_S2048x256_1_1_0_0_n_n.contr.Idx) :
    (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide), dif_pos (show (0 : Fin S2048x128.rank) ∈ dot_S2048x128_S256x128_S2048x256_1_1_0_0_n_n.lhsNonContracting by decide)]
  rfl
theorem lhs_gramA_1 (i : S2048x256.Idx) (q : dot_S2048x128_S256x128_S2048x256_1_1_0_0_n_n.contr.Idx) :
    (dot_S2048x128_S256x128_S2048x256_1_1_0_0_n_n.lhsIdx i q 1).val = (q ⟨0, by decide⟩).val :=
  dot_S2048x128_S256x128_S2048x256_1_1_0_0_n_n.lhsIdx_val_of_single rfl i q
theorem rhs_gramA_0 (i : S2048x256.Idx) (q : dot_S2048x128_S256x128_S2048x256_1_1_0_0_n_n.contr.Idx) :
    (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide), dif_pos (show (0 : Fin S256x128.rank) ∈ dot_S2048x128_S256x128_S2048x256_1_1_0_0_n_n.rhsNonContracting by decide)]
  rfl
theorem rhs_gramA_1 (i : S2048x256.Idx) (q : dot_S2048x128_S256x128_S2048x256_1_1_0_0_n_n.contr.Idx) :
    (dot_S2048x128_S256x128_S2048x256_1_1_0_0_n_n.rhsIdx i q 1).val = (q ⟨0, by decide⟩).val :=
  dot_S2048x128_S256x128_S2048x256_1_1_0_0_n_n.rhsIdx_val_of_single rfl i q

/-- Entry (n, c) of the product is the inner product of unit row n with the trip's unit row c. -/
theorem gramBlk_apply (xn : FVec Ideal S2048x128 .bf16) (b5 : FVec Ideal S256x128 .bf16) (n : Fin 2048) (c : Fin 256) :
    matmul dot_S2048x128_S256x128_S2048x256_1_1_0_0_n_n none xn b5 (constant (F := Ideal) S2048x256 .f32 0x00000000#32) (ix2 n c)
      = ∑ g : Fin 128, xn (ix2 n g) * b5 (ix2 c g) := by
  simp only [matmul]
  rw [Ideal.matmul_constant_zero_apply, ← Equiv.sum_comp (contrEquiv1 dot_S2048x128_S256x128_S2048x256_1_1_0_0_n_n 128 rfl rfl).symm]
  refine Finset.sum_congr rfl fun k _ => ?_
  have hk := contrEquiv1_symm_val dot_S2048x128_S256x128_S2048x256_1_1_0_0_n_n 128 rfl rfl k
  have el : dot_S2048x128_S256x128_S2048x256_1_1_0_0_n_n.lhsIdx (ix2 n c) ((contrEquiv1 dot_S2048x128_S256x128_S2048x256_1_1_0_0_n_n 128 rfl rfl).symm k) = ix2 n k := funext fun a => Fin.ext (by
    match a with
    | ⟨0, _⟩ => exact lhs_gramA_0 _ _
    | ⟨1, _⟩ => exact (lhs_gramA_1 _ _).trans hk)
  have er : dot_S2048x128_S256x128_S2048x256_1_1_0_0_n_n.rhsIdx (ix2 n c) ((contrEquiv1 dot_S2048x128_S256x128_S2048x256_1_1_0_0_n_n 128 rfl rfl).symm k) = ix2 c k := funext fun a => Fin.ext (by
    match a with
    | ⟨0, _⟩ => exact rhs_gramA_0 _ _
    | ⟨1, _⟩ => exact (rhs_gramA_1 _ _).trans hk)
  rw [el, er]

/-! ## The plain products: kept products times scaled features, and features times weights -/

theorem lhs_prod_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_prod_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_prod_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_prod_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Entry (n, f) of a 2048 x 256 matrix times a 256 x 128 matrix is the sum over the 256 shared coordinates. -/
theorem prodBlk_apply (v : FVec Ideal S2048x256 .bf16) (w : FVec Ideal S256x128 .bf16) (n : Fin 2048) (f : Fin 128) :
    matmul dot_S2048x256_S256x128_S2048x128_1_0_0_1_n_n none v w (constant (F := Ideal) S2048x128 .f32 0x00000000#32) (ix2 n f)
      = ∑ c : Fin 256, v (ix2 n c) * w (ix2 c f) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 n f) ((contrEquiv1 dot_S2048x256_S256x128_S2048x128_1_0_0_1_n_n 256 rfl rfl).symm k) = ix2 n k := funext fun a => Fin.ext (by
    match a with
    | ⟨0, _⟩ => exact lhs_prod_0 _ _
    | ⟨1, _⟩ => exact (lhs_prod_1 _ _).trans hk)
  have er : dot_S2048x256_S256x128_S2048x128_1_0_0_1_n_n.rhsIdx (ix2 n f) ((contrEquiv1 dot_S2048x256_S256x128_S2048x128_1_0_0_1_n_n 256 rfl rfl).symm k) = ix2 k f := funext fun a => Fin.ext (by
    match a with
    | ⟨0, _⟩ => exact (rhs_prod_0 _ _).trans hk
    | ⟨1, _⟩ => exact rhs_prod_1 _ _)
  rw [el, er]

theorem lhs_wgt_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_wgt_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_wgt_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_wgt_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Entry (n, o) of a 2048 x 128 matrix times the 128 x 128 weights is the sum over the 128 shared coordinates. -/
theorem wgtBlk_apply (v : FVec Ideal S2048x128 .bf16) (w : FVec Ideal S128x128 .bf16) (n : Fin 2048) (o : Fin 128) :
    matmul dot_S2048x128_S128x128_S2048x128_1_0_0_1_n_n none v w (constant (F := Ideal) S2048x128 .f32 0x00000000#32) (ix2 n o)
      = ∑ f : Fin 128, v (ix2 n f) * w (ix2 f o) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 n o) ((contrEquiv1 dot_S2048x128_S128x128_S2048x128_1_0_0_1_n_n 128 rfl rfl).symm k) = ix2 n k := funext fun a => Fin.ext (by
    match a with
    | ⟨0, _⟩ => exact lhs_wgt_0 _ _
    | ⟨1, _⟩ => exact (lhs_wgt_1 _ _).trans hk)
  have er : dot_S2048x128_S128x128_S2048x128_1_0_0_1_n_n.rhsIdx (ix2 n o) ((contrEquiv1 dot_S2048x128_S128x128_S2048x128_1_0_0_1_n_n 128 rfl rfl).symm k) = ix2 k o := funext fun a => Fin.ext (by
    match a with
    | ⟨0, _⟩ => exact (rhs_wgt_0 _ _).trans hk
    | ⟨1, _⟩ => exact rhs_wgt_1 _ _)
  rw [el, er]

/-! ## A column spread along rows, and the kept value -/

/-- A column broadcast along rows: entry (p, c) is the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The compare-and-select on one value: the value where it is above the threshold, else zero. -/
theorem keep_above (g t : EReal) :
    Scalar.select (FloatOps.cmpf (F := Ideal) (φ := .f32) .ogt g t) g (Scalar.ofBits (F := Ideal) .f32 0x00000000#32)
      = GraphStep.keepAbove t g := by
  have hz : Scalar.ofBits (F := Ideal) .f32 0x00000000#32 = (0 : EReal) := GraphConsts.zero_eq
  rw [hz, Ideal.cmpf_def]
  unfold GraphStep.keepAbove Ideal.cmp
  by_cases h : t < g
  · rw [if_pos h]
    simp only [h, decide_true, BitVec.ofBool_true]
    exact select_one _ _
  · rw [if_neg h]
    simp only [h, decide_false, BitVec.ofBool_false]
    exact select_zero _ _

/-! ## One trip, and eight -/

/-- One trip adds to entry (n, f) the sum over the trip's 256 rows of the kept products times the scaled features. -/
theorem accPay_apply (t : BitVec 32) (xn : FVec Ideal S2048x128 .bf16) (b5 : Vec Ideal S256x128 .bf16) (b4 : Vec Ideal S256x128 .f32)
    (b7 : Vec Ideal S256x1 .f32) (a : Vec Ideal S2048x128 .f32) (n : Fin 2048) (f : Fin 128) :
    accPay (F := Ideal) t xn b5 b4 b7 a (ix2 n f)
      = a (ix2 n f) + ∑ c : Fin 256, GraphStep.keepAbove (Ideal.ofBits .f32 t) (∑ g : Fin 128, xn (ix2 n g) * b5 (ix2 c g))
          * (b4 (ix2 c f) * b7 (ix2 c (0 : Fin 1))) := by
  unfold accPay
  simp only [shapeCast_self]
  rw [addf_apply, prodBlk_apply]
  refine congrArg (_ + ·) (Finset.sum_congr rfl fun c _ => ?_)
  rw [truncf_apply, truncf_apply, select_apply, cmpf_apply, broadcast_apply, broadcast_apply, gramBlk_apply, mulf_apply,
    broadcastTo_a1_ab_apply, keep_above]
  rfl

/-- After k of the eight trips the accumulator holds what it started with plus the sum over the rows below 256 k. -/
theorem accRec_partial (t : BitVec 32) (xn : FVec Ideal S2048x128 .bf16) (S5 : Vec Ideal S2048x128 .bf16) (H4 : Vec Ideal S2048x128 .f32)
    (S7 : Vec Ideal S2048x1 .f32) (a0 : Vec Ideal S2048x128 .f32) (n : Fin 2048) (f : Fin 128) (k : ℕ) (hk : k ≤ 8) :
    accRec (F := Ideal) t xn S5 H4 S7 a0 k (ix2 n f)
      = a0 (ix2 n f) + partialSum (fun m : Fin 2048 => GraphStep.keepAbove (Ideal.ofBits .f32 t) (∑ g : Fin 128, xn (ix2 n g) * S5 (ix2 m g))
          * (H4 (ix2 m f) * S7 (ix2 m (0 : Fin 1)))) k := by
  induction k with
  | zero =>
    rw [partialSum_zero, add_zero]
    rfl
  | succ k ih =>
    have hk' : k < 8 := by omega
    rw [accRec, dif_pos hk', accPay_apply, ih (by omega), partialSum_succ _ k hk', add_assoc]
    refine congrArg (_ + ·) (congrArg (_ + ·) (Finset.sum_congr rfl fun c _ => ?_))
    rw [rowsBlk_apply, rowsBlk1_apply]
    refine congrArg (fun z => GraphStep.keepAbove _ z * _) (Finset.sum_congr rfl fun g _ => ?_)
    rw [rowsBlk_apply]

/-- After the eight trips entry (n, f) of the accumulator is what it started with plus the sum over all 2048 rows m of
    the kept product of unit rows n and m times feature (m, f) scaled by row m's reciprocal square root. -/
theorem accRec_apply (t : BitVec 32) (xn : FVec Ideal S2048x128 .bf16) (S5 : Vec Ideal S2048x128 .bf16) (H4 : Vec Ideal S2048x128 .f32)
    (S7 : Vec Ideal S2048x1 .f32) (a0 : Vec Ideal S2048x128 .f32) (n : Fin 2048) (f : Fin 128) :
    accRec (F := Ideal) t xn S5 H4 S7 a0 8 (ix2 n f)
      = a0 (ix2 n f) + ∑ m : Fin 2048, GraphStep.keepAbove (Ideal.ofBits .f32 t) (∑ g : Fin 128, xn (ix2 n g) * S5 (ix2 m g))
          * (H4 (ix2 m f) * S7 (ix2 m (0 : Fin 1))) := by
  rw [accRec_partial t xn S5 H4 S7 a0 n f 8 (le_refl 8), partialSum_eight]

/-! ## The pointwise payloads -/

/-- The accumulator starts from zero. -/
theorem pay10_apply (j : S2048x128.Idx) : k0_pay10 (F := Ideal) j = 0 := by
  unfold k0_pay10
  simp only [shapeCast_self]
  rw [broadcast_apply]
  exact GraphConsts.zero_eq

/-- The step's result: row n of the accumulator scaled by row n's reciprocal square root. -/
theorem pay12_apply (s : Vec Ideal S2048x1 .f32) (a : Vec Ideal S2048x128 .f32) (n : Fin 2048) (f : Fin 128) :
    k0_pay12 (F := Ideal) s a (ix2 n f) = s (ix2 n (0 : Fin 1)) * a (ix2 n f) := by
  unfold k0_pay12
  simp only [shapeCast_self]
  rw [mulf_apply, broadcastTo_a1_ab_apply]

/-- The input block without its leading unit axis. -/
theorem pay3_apply (x0 : Vec Ideal S1x2048x128 .f32) (n : Fin 2048) (f : Fin 128) :
    k0_pay3 (F := Ideal) x0 (ix2 n f) = x0 (ix3 (0 : Fin 1) n f) := by
  unfold k0_pay3
  simp only [shapeCast_self]
  rw [shapeCast_1ab_ab_apply]

/-- The block written back: the features plus the input, times the weights. -/
theorem pay2_apply (H : Vec Ideal S2048x128 .f32) (x0 : Vec Ideal S1x2048x128 .f32) (x1 : Vec Ideal S128x128 .f32) (n : Fin 2048) (o : Fin 128) :
    k0_pay2 (F := Ideal) H x0 x1 (ix3 (0 : Fin 1) n o) = ∑ f : Fin 128, (H (ix2 n f) + x0 (ix3 (0 : Fin 1) n f)) * x1 (ix2 f o) := by
  unfold k0_pay2
  rw [shapeCast_ab_1ab_apply, wgtBlk_apply]
  refine Finset.sum_congr rfl fun f _ => ?_
  rw [truncf_apply, truncf_apply, addf_apply, shapeCast_1ab_ab_apply]

end Cert.KernelIdeal.KVal

end
-- ==== Proof.KValue.lean ====
/-
  The kernel body's block, index by index, is the first arrangement of the graph convolution.

  At the exact instance the unit rows are `h · (1 / max(‖h‖, ε))`; the degree column after its eight trips is, row by row,
  the sum over all 2048 rows of the kept Gram entries; the stored column is its reciprocal square root; the accumulator
  after its eight trips is `∑ m, A n m · (h m f · s m)`; and the step's result is `s n` times that: `GraphStep.stepK`.
  Three steps, the input block added back and the product with the weights give `GraphStep.outK`.
-/
import proofs.«122685_j35759897706671_1_alg».proof.Proof.KValDeg
import proofs.«122685_j35759897706671_1_alg».proof.Proof.KValAcc

noncomputable section

namespace Cert.KernelIdeal.KVal

open Cert.KernelIdeal Cert.KernelIdeal.Gen Cert.KernelIdeal.KRun
open Idealize.ShloMosaic Idealize.ShloMosaic.ValueIdx
open scoped BigOperators

/-- One step of the body is one step of the first arrangement, at the threshold its bit pattern denotes. -/
theorem stepV_apply (t : BitVec 32) (h : Vec Ideal S2048x128 .f32) (n : Fin 2048) (f : Fin 128) :
    stepV (F := Ideal) t h (ix2 n f)
      = GraphStep.stepK GraphConsts.eps (Ideal.ofBits .f32 t) (fun n f => h (ix2 n f)) n f := by
  have hu : ∀ (n : Fin 2048) (g : Fin 128), k0_pay4 (F := Ideal) h (ix2 n g)
      = GraphStep.unitMul GraphConsts.eps (fun n f => h (ix2 n f)) n g := pay4_apply h
  have hd : ∀ n : Fin 2048, degRec (F := Ideal) t (k0_pay4 h) (k0_pay5 h) (k0_pay6 (F := Ideal)) 8 (ix2 n (0 : Fin 1))
      = GraphStep.degree (GraphStep.adjacency (Ideal.ofBits .f32 t) (GraphStep.unitMul GraphConsts.eps (fun n f => h (ix2 n f)))) n := by
    intro n
    rw [degRec_apply, pay6_apply, zero_add, pay5_eq]
    simp only [hu]
    rfl
  have hs : ∀ n : Fin 2048, k0_pay9 (F := Ideal) (k0_pay8 (degRec (F := Ideal) t (k0_pay4 h) (k0_pay5 h) (k0_pay6 (F := Ideal)) 8)) (ix2 n (0 : Fin 1))
      = GraphStep.invSqrt (GraphStep.degree (GraphStep.adjacency (Ideal.ofBits .f32 t) (GraphStep.unitMul GraphConsts.eps (fun n f => h (ix2 n f)))) n) := by
    intro n; rw [isq_apply, hd]
  unfold stepV
  rw [pay12_apply, hs, accRec_apply, pay10_apply, zero_add]
  simp only [hs]
  rw [pay5_eq]
  simp only [hu]
  rfl

/-- The three steps of the body are the three steps of the first arrangement. -/
theorem steps_apply (x0 : Vec Ideal S1x2048x128 .f32) (n : Fin 2048) (f : Fin 128) :
    stepV (F := Ideal) bits₃ (stepV bits₂ (stepV bits₁ (k0_pay3 x0))) (ix2 n f)
      = GraphStep.stepK GraphConsts.eps GraphConsts.thr₃ (GraphStep.stepK GraphConsts.eps GraphConsts.thr₂
          (GraphStep.stepK GraphConsts.eps GraphConsts.thr₁ (fun n f => x0 (ix3 (0 : Fin 1) n f)))) n f := by
  have e0 : (fun (n : Fin 2048) (f : Fin 128) => k0_pay3 (F := Ideal) x0 (ix2 n f)) = fun n f => x0 (ix3 (0 : Fin 1) n f) := by
    funext n f; exact pay3_apply x0 n f
  have e1 : (fun (n : Fin 2048) (f : Fin 128) => stepV (F := Ideal) bits₁ (k0_pay3 x0) (ix2 n f))
      = GraphStep.stepK GraphConsts.eps GraphConsts.thr₁ (fun n f => x0 (ix3 (0 : Fin 1) n f)) := by
    funext n f; rw [stepV_apply, e0]; rfl
  have e2 : (fun (n : Fin 2048) (f : Fin 128) => stepV (F := Ideal) bits₂ (stepV bits₁ (k0_pay3 x0)) (ix2 n f))
      = GraphStep.stepK GraphConsts.eps GraphConsts.thr₂ (GraphStep.stepK GraphConsts.eps GraphConsts.thr₁ (fun n f => x0 (ix3 (0 : Fin 1) n f))) := by
    funext n f; rw [stepV_apply, e1]; rfl
  rw [stepV_apply, e2]; rfl

/-- The block the body writes back, index by index. -/
theorem kernelValue_apply (x0 : Vec Ideal S1x2048x128 .f32) (x1 : Vec Ideal S128x128 .f32) (n : Fin 2048) (o : Fin 128) :
    kernelValue (F := Ideal) x0 x1 (ix3 (0 : Fin 1) n o)
      = GraphStep.outK GraphConsts.eps GraphConsts.thr₁ GraphConsts.thr₂ GraphConsts.thr₃
          (fun n f => x0 (ix3 (0 : Fin 1) n f)) (fun f o => x1 (ix2 f o)) n o := by
  unfold kernelValue
  rw [pay2_apply]
  simp only [steps_apply]
  rfl

end Cert.KernelIdeal.KVal

end
-- ==== Proof.KFinal.lean ====
/-
  The output array after the kernel's run, index by index. Grid point `t` stages batch `t` of the input (a block
  of one batch, all 2048 rows, all 128 columns), the whole weight matrix, and writes back batch `t` of the output;
  distinct points write distinct batches, so entry `(b, n, o)` of the final array is entry `(0, n, o)` of what point
  `b` wrote: the body's block computed from batch `b` of the input and the weights.
-/
import proofs.«122685_j35759897706671_1_alg».proof.Proof.KChain
import proofs.«122685_j35759897706671_1_alg».proof.Proof.KValue
import proofs.«122685_j35759897706671_1_alg».proof.Proof.Gen.KernelIdeal.Value

set_option maxRecDepth 16384

noncomputable section

namespace Cert.KernelIdeal.KFinal

open Cert.KernelIdeal Cert.KernelIdeal.Gen Cert.KernelIdeal.KRun
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem lt8 (t : Fin cfg0.N) : t.val < 8 := t.isLt

/-- The three windows' block indices at point `t`: batch `t` of the input and of the output, the weights whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Entry `(0, n, f)` of point `t`'s input block is entry `(t, n, f)` of the input array. -/
theorem blk_in0 (c : Dev nD) (t : Fin cfg0.N) (n : Fin 2048) (f : Fin 128) :
    iblk m c 0 t (ix3 (0 : Fin 1) n f) = m ((c : Thread nD τ).loc main_arg0) (ix3 (⟨t.val, lt8 t⟩ : Fin 8) n f) := by
  obtain ⟨e0, e1, e2, -, -, -, -, -⟩ := idx_facts t
  show V m c main_arg0 (((cfg0.win 0).blk t).view.emb (ix3 (0 : Fin 1) n f)) = _
  rw [V_main_arg0]
  congr 1
  funext a; apply Fin.ext
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 128 + 1 * f.val = f.val; omega

/-- Entry `(f, o)` of point `t`'s weight block is entry `(f, o)` of the weight array. -/
theorem blk_in1 (c : Dev nD) (t : Fin cfg0.N) (f : Fin 128) (o : Fin 128) :
    iblk m c 1 t (ix2 f o) = m ((c : Thread nD τ).loc main_arg1) (ix2 f o) := by
  obtain ⟨-, -, -, e0, e1, -, -, -⟩ := idx_facts t
  show V m c main_arg1 (((cfg0.win 1).blk t).view.emb (ix2 f o)) = _
  rw [V_main_arg1]
  congr 1
  funext a; apply Fin.ext
  match a with
  | ⟨0, _⟩ => show win0_1.index t (0 : Fin 2) * 128 + 1 * f.val = f.val; omega
  | ⟨1, _⟩ => show win0_1.index t (1 : Fin 2) * 128 + 1 * o.val = o.val; omega

/-- Entry `(t, n, o)` of the final output array is entry `(0, n, o)` of the body's block at point `t`. -/
theorem final_apply (c : Dev nD) (t : Fin cfg0.N) (n : Fin 2048) (o : Fin 128) :
    (dats m 0 c).arrAt 2 cfg0.N (ix3 (⟨t.val, lt8 t⟩ : Fin 8) n o)
      = kernelValue (iblk m c 0 t) (iblk m c 1 t) (ix3 (0 : Fin 1) n o) := by
  obtain ⟨-, -, -, -, -, e0, e1, e2⟩ := idx_facts t
  have hb := congrFun (Cert.KernelIdeal.Value.blocks2 m c t (flush0_2 t)) (ix3 (0 : Fin 1) n o)
  rw [Cert.KernelIdeal.Value.flushed2_A, out_eq] at hb
  refine Eq.trans ?_ hb
  show _ = (dats m 0 c).arrAt 2 cfg0.N (((cfg0.win 2).blk t).view.emb (ix3 (0 : Fin 1) n o))
  congr 1
  funext a; apply Fin.ext
  match a with
  | ⟨0, _⟩ => show t.val = win0_2.index t (0 : Fin 3) * 1 + 1 * 0; omega
  | ⟨1, _⟩ => show n.val = win0_2.index t (1 : Fin 3) * 2048 + 1 * n.val; omega
  | ⟨2, _⟩ => show o.val = win0_2.index t (2 : Fin 3) * 128 + 1 * o.val; omega

end Cert.KernelIdeal.KFinal

end
-- ==== Proof.lean ====
/-
  A graph convolution on 8 batches of 2048 nodes with 128 features, against its reference.

  One propagation step scales each node's feature row to unit length (by `max(‖h‖, ε)`), forms the cosine
  similarities of all pairs of nodes, keeps those above a threshold, sums each row to a degree `d`, and replaces the
  features by `D^{-1/2} A D^{-1/2} h`. Three steps at thresholds about 0.05, 0.1 and 0.15 are followed by adding the
  input back and multiplying by a 128 × 128 weight matrix.

  The kernel handles one batch per grid point. It never forms the 2048 × 2048 matrix: it sweeps the nodes in eight
  blocks of 256, once to accumulate the degrees and once to accumulate `∑ m, A n m · (h m · d m^{-1/2})`, and multiplies
  by `d n^{-1/2}` at the end; its unit rows are `h · (1 / max(‖h‖, ε))`. The reference forms the whole matrix, multiplies each
  entry by both factors, and contracts with `h`; its unit rows are `h / max(‖h‖, ε)`. At the exact instance a change of
  float format is the identity and a blocked sum is the whole sum, so entry `(b, n, o)` of the kernel's result is
  `GraphStep.outK` and of the reference's `GraphStep.outR` of batch `b`'s rows and the weights. The two agree on
  real-valued features (`GraphStep.out_eq`): a factor `d n^{-1/2}` may be infinite only when row and column `n` of the
  kept matrix vanish, so it always meets a zero. The precondition, every input finite, makes the features real.
-/
import proofs.«122685_j35759897706671_1_alg».proof.Defs
import proofs.«122685_j35759897706671_1_alg».proof.Proof.Gen.Kernel
import proofs.«122685_j35759897706671_1_alg».proof.Proof.Gen.Kernel.Frame
import proofs.«122685_j35759897706671_1_alg».proof.Proof.Gen.KernelIdeal
import proofs.«122685_j35759897706671_1_alg».proof.Proof.Gen.KernelIdeal.Frame
import proofs.«122685_j35759897706671_1_alg».proof.Proof.Gen.KernelIdeal.Value
import proofs.«122685_j35759897706671_1_alg».proof.Proof.Gen.ReferenceIdeal
import proofs.«122685_j35759897706671_1_alg».proof.Proof.Gen.Pre_finite_inputs
import proofs.«122685_j35759897706671_1_alg».proof.Proof.GraphStep
import proofs.«122685_j35759897706671_1_alg».proof.Proof.Consts
import proofs.«122685_j35759897706671_1_alg».proof.Proof.Finite
import proofs.«122685_j35759897706671_1_alg».proof.Proof.RefRun
import proofs.«122685_j35759897706671_1_alg».proof.Proof.RefValue
import proofs.«122685_j35759897706671_1_alg».proof.Proof.KFinal
import Idealize.ShloMosaic.Adequacy
import Idealize.ShloMosaic.Init

noncomputable section

namespace Cert.Proof

open Idealize.ShloMosaic Idealize.ShloMosaic.TcCoe Idealize.ShloMosaic.ValueIdx Idealize.SL.Sem

/-- Under the precondition, entry `(t, n, o)` of the kernel's final output array is that entry of the reference's result. -/
theorem result_apply (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) (t : Fin Cert.KernelIdeal.cfg0.N) (n : Fin 2048) (o : Fin 128) :
    (Cert.KernelIdeal.Gen.dats m 0 c).arrAt 2 Cert.KernelIdeal.cfg0.N (ix3 (⟨t.val, Cert.KernelIdeal.KFinal.lt8 t⟩ : Fin 8) n o)
      = Cert.ReferenceIdeal.ReadP.val_main_v61 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (ix3 (⟨t.val, Cert.KernelIdeal.KFinal.lt8 t⟩ : Fin 8) n o) := by
  have hk := Cert.KernelIdeal.KFinal.final_apply m c t n o
  rw [Cert.KernelIdeal.KVal.kernelValue_apply] at hk
  have e0 : (fun (n : Fin 2048) (f : Fin 128) => Cert.KernelIdeal.Gen.iblk m c 0 t (ix3 (0 : Fin 1) n f))
      = fun n f => m ((c.tc : Thread Cert.KernelIdeal.nD Cert.KernelIdeal.τ).loc Cert.KernelIdeal.main_arg0) (ix3 (⟨t.val, Cert.KernelIdeal.KFinal.lt8 t⟩ : Fin 8) n f) := by
    funext n f; exact Cert.KernelIdeal.KFinal.blk_in0 m c t n f
  have e1 : (fun (f : Fin 128) (o : Fin 128) => Cert.KernelIdeal.Gen.iblk m c 1 t (ix2 f o))
      = fun f o => m ((c.tc : Thread Cert.KernelIdeal.nD Cert.KernelIdeal.τ).loc Cert.KernelIdeal.main_arg1) (ix2 f o) := by
    funext f o; exact Cert.KernelIdeal.KFinal.blk_in1 m c t f o
  rw [e0, e1] at hk
  have hreal : GraphStep.IsReal (fun (n : Fin 2048) (f : Fin 128) =>
      m ((c.tc : Thread Cert.KernelIdeal.nD Cert.KernelIdeal.τ).loc Cert.KernelIdeal.main_arg0) (ix3 (⟨t.val, Cert.KernelIdeal.KFinal.lt8 t⟩ : Fin 8) n f)) :=
    fun n f => Cert.Proof.Finite.input_real _ _ (hpre c) (ix3 (⟨t.val, Cert.KernelIdeal.KFinal.lt8 t⟩ : Fin 8) n f)
  have hr := Cert.ReferenceIdeal.RefValue.ref_value
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) (⟨t.val, Cert.KernelIdeal.KFinal.lt8 t⟩ : Fin 8) n o
  refine hk.trans ?_
  rw [GraphStep.out_eq GraphConsts.eps_pos GraphConsts.thr₁_pos GraphConsts.thr₂_pos GraphConsts.thr₃_pos hreal, hr,
    (hagree c).1, (hagree c).2]

/-- The two idealized programs, from memories that agree on the inputs, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.ValueP.res_main_v61 m' c, ?_, ?_⟩
  · refine (θ_run Cert.KernelIdeal.defs _ _).mono (fun r h c => ⟨(h c).1.trans ?_, (h c).2.1, (h c).2.2⟩)
      (Cert.KernelIdeal.Value.run_blocks (F := Ideal) m ρ)
    funext i
    obtain ⟨b, n, o, rfl⟩ : ∃ (b : Fin 8) (n : Fin 2048) (o : Fin 128), i = ix3 b n o := ⟨i 0, i 1, i 2, eq_ix3 i⟩
    exact result_apply m m' hpre hagree c ⟨b.val, b.isLt⟩ n o
  · exact Cert.ReferenceIdeal.ValueP.run (F := Ideal) m' ρ'

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
